-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072 : Shape := ⟨1, ![131072]⟩
abbrev S1000000x128 : Shape := ⟨2, ![1000000, 128]⟩
abbrev S100 : Shape := ⟨1, ![100]⟩
abbrev S484x100 : Shape := ⟨2, ![484, 100]⟩
abbrev S100x100 : Shape := ⟨2, ![100, 100]⟩
abbrev S384x100 : Shape := ⟨2, ![384, 100]⟩
abbrev S384 : Shape := ⟨1, ![384]⟩
abbrev S384x128 : Shape := ⟨2, ![384, 128]⟩
abbrev S256x128 : Shape := ⟨2, ![256, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072 : S_.BroadcastsInDim S131072 (![] : Fin 0 → Fin S131072.rank)
  reducesTo_S131072_S_d0 : S131072.ReducesTo [0] S_
  bcast_S_S1000000x128 : S_.BroadcastsInDim S1000000x128 (![] : Fin 0 → Fin S1000000x128.rank)
  reducesTo_S1000000x128_S_d0_1 : S1000000x128.ReducesTo [0, 1] S_
  bcast_S_S100 : S_.BroadcastsInDim S100 (![] : Fin 0 → Fin S100.rank)
  reducesTo_S100_S_d0 : S100.ReducesTo [0] S_
  bcast_S_S484x100 : S_.BroadcastsInDim S484x100 (![] : Fin 0 → Fin S484x100.rank)
  reducesTo_S484x100_S_d0_1 : S484x100.ReducesTo [0, 1] S_
  bcast_S_S100x100 : S_.BroadcastsInDim S100x100 (![] : Fin 0 → Fin S100x100.rank)
  reducesTo_S100x100_S_d0_1 : S100x100.ReducesTo [0, 1] S_
  bcast_S_S384x100 : S_.BroadcastsInDim S384x100 (![] : Fin 0 → Fin S384x100.rank)
  reducesTo_S384x100_S_d0_1 : S384x100.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S384 .f32) (main_arg15 : FVec F S256x128 .f32) (main_arg16 : FVec F S128 .f32) (main_v63 : IVec S_ 1) (main_v67 : IVec S_ 1) : IVec S_ 1 :=
  let main_v68 : IVec S_ 1 := andi main_v63 main_v67
  let main_v69 : FVec F S384 .f32 := Host.absf main_arg14
  let main_cst_26 : FVec F S_ .f32 := constant S_ .f32 0x7F800000#32
  let main_v70 : FVec F S384 .f32 := broadcastInDim S384 ![] bcast_S_S384 main_cst_26
  let main_v71 : IVec S384 1 := cmpf .olt main_v69 main_v70
  let main_c_27 : IVec S_ 1 := constantI S_ 1 1#1
  let main_v72 : IVec S_ 1 := (fun x v => Host.reduce IntOp.andi x v reducesTo_S384_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S384x100 .f32) (main_arg12 : FVec F S384 .f32) (main_arg13 : FVec F S384x128 .f32) (main_arg14 : FVec F S384 .f32) (main_arg15 : FVec F S256x128 .f32) (main_arg16 : FVec F S128 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S384x100 .f32 := Host.absf main_arg11
  let main_cst_20 : FVec F S_ .f32 := constant S_ .f32 0x7F800000#32
  let main_v55 : FVec F S384x100 .f32 := broadcastInDim S384x100 ![] bcast_S_S384x100 main_cst_20
  let main_v56 : IVec S384x100 1 := cmpf .olt main_v54 main_v55
  let main_c_21 : IVec S_ 1 := constantI S_ 1 1#1
  let main_v57 : IVec S_ 1 := (fun x v => Host.reduce IntOp.andi x v reducesTo_S384x100_S_d0_1 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S384x128 .f32 := Host.absf main_arg13
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg14 main_arg15 main_arg16 main_v63 main_v67

def fn_part2 {F : FTy → Type} [FloatOps F] (main_arg7 : FVec F S484x100 .f32) (main_arg8 : FVec F S100 .f32) (main_arg9 : FVec F S100x100 .f32) (main_arg10 : FVec F S100 .f32) (main_arg11 : FVec F S384x100 .f32) (main_arg12 : FVec F S384 .f32) (main_arg13 : FVec F S384x128 .f32) (main_arg14 : FVec F S384 .f32) (main_arg15 : FVec F S256x128 .f32) (main_arg16 : FVec F S128 .f32) (main_v33 : IVec S_ 1) : IVec S_ 1 :=
  let main_v34 : FVec F S484x100 .f32 := Host.absf main_arg7
  let main_cst_12 : FVec F S_ .f32 := constant S_ .f32 0x7F800000#32
  let main_v35 : FVec F S484x100 .f32 := broadcastInDim S484x100 ![] bcast_S_S484x100 main_cst_12
  let main_v36 : IVec S484x100 1 := cmpf .olt main_v34 main_v35
  let main_c_13 : IVec S_ 1 := constantI S_ 1 1#1
  let main_v37 : IVec S_ 1 := (fun x v => Host.reduce IntOp.andi x v reducesTo_S484x100_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100x100 .f32 := Host.absf main_arg9
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg11 main_arg12 main_arg13 main_arg14 main_arg15 main_arg16 main_v48 main_v49 main_v50

def fn_part1 {F : FTy → Type} [FloatOps F] (main_arg4 : FVec F S1000000x128 .f32) (main_arg5 : FVec F S100 .f32) (main_arg6 : FVec F S100 .f32) (main_arg7 : FVec F S484x100 .f32) (main_arg8 : FVec F S100 .f32) (main_arg9 : FVec F S100x100 .f32) (main_arg10 : FVec F S100 .f32) (main_arg11 : FVec F S384x100 .f32) (main_arg12 : FVec F S384 .f32) (main_arg13 : FVec F S384x128 .f32) (main_arg14 : FVec F S384 .f32) (main_arg15 : FVec F S256x128 .f32) (main_arg16 : FVec F S128 .f32) (main_v13 : IVec S_ 1) (main_v16 : IVec S131072 1) : IVec S_ 1 :=
  let main_c_5 : IVec S_ 1 := constantI S_ 1 1#1
  let main_v17 : IVec S_ 1 := (fun x v => Host.reduce IntOp.andi x v reducesTo_S131072_S_d0 h_S_) main_v16 main_c_5
  let main_v18 : IVec S_ 1 := andi main_v13 main_v17
  let main_v19 : FVec F S1000000x128 .f32 := Host.absf main_arg4
  let main_cst_6 : FVec F S_ .f32 := constant S_ .f32 0x7F800000#32
  let main_v20 : FVec F S1000000x128 .f32 := broadcastInDim S1000000x128 ![] bcast_S_S1000000x128 main_cst_6
  let main_v21 : IVec S1000000x128 1 := cmpf .olt main_v19 main_v20
  let main_c_7 : IVec S_ 1 := constantI S_ 1 1#1
  let main_v22 : IVec S_ 1 := (fun x v => Host.reduce IntOp.andi x v reducesTo_S1000000x128_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S131072x128 .f32) (main_arg1 : FVec F S131072x128 .f32) (main_arg2 : FVec F S131072x128 .f32) (main_arg3 : FVec F S131072 .f32) (main_arg4 : FVec F S1000000x128 .f32) (main_arg5 : FVec F S100 .f32) (main_arg6 : FVec F S100 .f32) (main_arg7 : FVec F S484x100 .f32) (main_arg8 : FVec F S100 .f32) (main_arg9 : FVec F S100x100 .f32) (main_arg10 : FVec F S100 .f32) (main_arg11 : FVec F S384x100 .f32) (main_arg12 : FVec F S384 .f32) (main_arg13 : FVec F S384x128 .f32) (main_arg14 : FVec F S384 .f32) (main_arg15 : FVec F S256x128 .f32) (main_arg16 : FVec F S128 .f32) (main_arg17 : IVec S131072 32) (main_arg18 : IVec S131072 32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S131072 .f32 := Host.absf main_arg3
  let main_cst_4 : FVec F S_ .f32 := constant S_ .f32 0x7F800000#32
  let main_v15 : FVec F S131072 .f32 := broadcastInDim S131072 ![] bcast_S_S131072 main_cst_4
  let main_v16 : IVec S131072 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S131072x128 : Shape := ⟨2, ![131072, 128]⟩
abbrev S131072 : Shape := ⟨1, ![131072]⟩
abbrev S1000000x128 : Shape := ⟨2, ![1000000, 128]⟩
abbrev S100 : Shape := ⟨1, ![100]⟩
abbrev S484x100 : Shape := ⟨2, ![484, 100]⟩
abbrev S100x100 : Shape := ⟨2, ![100, 100]⟩
abbrev S384x100 : Shape := ⟨2, ![384, 100]⟩
abbrev S384 : Shape := ⟨1, ![384]⟩
abbrev S384x128 : Shape := ⟨2, ![384, 128]⟩
abbrev S256x128 : Shape := ⟨2, ![256, 128]⟩
abbrev S128 : Shape := ⟨1, ![128]⟩
abbrev S_ : Shape := ⟨0, ![]⟩
abbrev S131072x1 : Shape := ⟨2, ![131072, 1]⟩
abbrev S1x100 : Shape := ⟨2, ![1, 100]⟩
abbrev S131072x100 : Shape := ⟨2, ![131072, 100]⟩
abbrev S100x384 : Shape := ⟨2, ![100, 384]⟩
abbrev S128x384 : Shape := ⟨2, ![128, 384]⟩
abbrev S1024x128 : Shape := ⟨2, ![1024, 128]⟩
abbrev S1024x100 : Shape := ⟨2, ![1024, 100]⟩
abbrev S1024x484 : Shape := ⟨2, ![1024, 484]⟩
abbrev S1024x384 : Shape := ⟨2, ![1024, 384]⟩
abbrev S1x384 : Shape := ⟨2, ![1, 384]⟩
abbrev S1024x256 : Shape := ⟨2, ![1024, 256]⟩
abbrev S1x128 : Shape := ⟨2, ![1, 128]⟩
abbrev S262144x128 : Shape := ⟨2, ![262144, 128]⟩

abbrev nBuf : Space → Nat
  | .hbm => 71
  | .vmem => 30
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S131072, .f32⟩
  | .hbm, ⟨4, _⟩ => ⟨S1000000x128, .f32⟩
  | .hbm, ⟨5, _⟩ => ⟨S100, .f32⟩
  | .hbm, ⟨6, _⟩ => ⟨S100, .f32⟩
  | .hbm, ⟨7, _⟩ => ⟨S484x100, .f32⟩
  | .hbm, ⟨8, _⟩ => ⟨S100, .f32⟩
  | .hbm, ⟨9, _⟩ => ⟨S100x100, .f32⟩
  | .hbm, ⟨10, _⟩ => ⟨S100, .f32⟩
  | .hbm, ⟨11, _⟩ => ⟨S384x100, .f32⟩
  | .hbm, ⟨12, _⟩ => ⟨S384, .f32⟩
  | .hbm, ⟨13, _⟩ => ⟨S384x128, .f32⟩
  | .hbm, ⟨14, _⟩ => ⟨S384, .f32⟩
  | .hbm, ⟨15, _⟩ => ⟨S256x128, .f32⟩
  | .hbm, ⟨16, _⟩ => ⟨S128, .f32⟩
  | .hbm, ⟨17, _⟩ => ⟨S131072, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x128, .f32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S131072x1, .i32⟩
  | .hbm, ⟨36, _⟩ => ⟨S131072x128, .f32⟩
  | .hbm, ⟨37, _⟩ => ⟨S131072x1, .f32⟩
  | .hbm, ⟨38, _⟩ => ⟨S1x100, .f32⟩
  | .hbm, ⟨39, _⟩ => ⟨S131072x100, .f32⟩
  | .hbm, ⟨40, _⟩ => ⟨S131072x100, .f32⟩
  | .hbm, ⟨41, _⟩ => ⟨S131072x100, .f32⟩
  | .hbm, ⟨42, _⟩ => ⟨S1x100, .f32⟩
  | .hbm, ⟨43, _⟩ => ⟨S131072x100, .f32⟩
  | .hbm, ⟨44, _⟩ => ⟨S131072x100, .f32⟩
  | .hbm, ⟨45, _⟩ => ⟨S131072x100, .f32⟩
  | .hbm, ⟨46, _⟩ => ⟨S100x384, .f32⟩
  | .hbm, ⟨47, _⟩ => ⟨S128x384, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S_, .i32⟩
  | .hbm, ⟨53, _⟩ => ⟨S131072, .i32⟩
  | .hbm, ⟨54, _⟩ => ⟨S131072, .i1⟩
  | .hbm, ⟨55, _⟩ => ⟨S_, .i32⟩
  | .hbm, ⟨56, _⟩ => ⟨S131072, .i32⟩
  | .hbm, ⟨57, _⟩ => ⟨S131072, .i32⟩
  | .hbm, ⟨58, _⟩ => ⟨S131072, .i32⟩
  | .hbm, ⟨59, _⟩ => ⟨S131072x1, .i32⟩
  | .hbm, ⟨60, _⟩ => ⟨S1000000x128, .f32⟩
  | .hbm, ⟨61, _⟩ => ⟨S_, .i32⟩
  | .hbm, ⟨62, _⟩ => ⟨S131072, .i32⟩
  | .hbm, ⟨63, _⟩ => ⟨S131072, .i1⟩
  | .hbm, ⟨64, _⟩ => ⟨S_, .i32⟩
  | .hbm, ⟨65, _⟩ => ⟨S131072, .i32⟩
  | .hbm, ⟨66, _⟩ => ⟨S131072, .i32⟩
  | .hbm, ⟨67, _⟩ => ⟨S131072, .i32⟩
  | .hbm, ⟨68, _⟩ => ⟨S131072x1, .i32⟩
  | .hbm, ⟨69, _⟩ => ⟨S1000000x128, .f32⟩
  | .hbm, ⟨70, _⟩ => ⟨S262144x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x100, .f32⟩
  | .local _ .vmem, ⟨7, _⟩ => ⟨S1024x100, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S484x100, .f32⟩
  | .local _ .vmem, ⟨13, _⟩ => ⟨S100, .f32⟩
  | .local _ .vmem, ⟨14, _⟩ => ⟨S100x100, .f32⟩
  | .local _ .vmem, ⟨15, _⟩ => ⟨S100, .f32⟩
  | .local _ .vmem, ⟨16, _⟩ => ⟨S100x384, .f32⟩
  | .local _ .vmem, ⟨17, _⟩ => ⟨S384, .f32⟩
  | .local _ .vmem, ⟨18, _⟩ => ⟨S128x384, .f32⟩
  | .local _ .vmem, ⟨19, _⟩ => ⟨S384, .f32⟩
  | .local _ .vmem, ⟨20, _⟩ => ⟨S256x128, .f32⟩
  | .local _ .vmem, ⟨21, _⟩ => ⟨S128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v25_3 : Ref sig .tc := ⟨.hbm, 51, rfl⟩
abbrev main_c_3 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_c_6 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S484x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S100_S1x100_1 : S100.BroadcastsInDim S1x100 (![1] : Fin 1 → Fin S1x100.rank)
  bcast_S131072x1_S131072x100_0_1 : S131072x1.BroadcastsInDim S131072x100 (![0, 1] : Fin 2 → Fin S131072x100.rank)
  bcast_S1x100_S131072x100_0_1 : S1x100.BroadcastsInDim S131072x100 (![0, 1] : Fin 2 → Fin S131072x100.rank)
  transposes_S384x100_S100x384_1_0 : S384x100.Transposes [1, 0] S100x384
  transposes_S384x128_S128x384_1_0 : S384x128.Transposes [1, 0] S128x384
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  concatenates_S1024x128_S1024x128_S1024x128_S1024x100_S1024x484_d1 : Shape.Concatenates [S1024x128, S1024x128, S1024x128, S1024x100] S1024x484 1
  inb_S484x100_S484x100_0_0 : ∀ a, (![0, 0] : Fin 2 → Nat) a + S484x100.size a ≤ S484x100.size a
  h_S484x100 : 0 < S484x100.numel
  bitsLt_bf16_f32 : FTy.bits .bf16 < FTy.bits .f32
  inb_S100_S100_0 : ∀ a, (![0] : Fin 1 → Nat) a + S100.size a ≤ S100.size a
  h_S100 : 0 < S100.numel
  inb_S100x100_S100x100_0_0 : ∀ a, (![0, 0] : Fin 2 → Nat) a + S100x100.size a ≤ S100x100.size a
  h_S100x100 : 0 < S100x100.numel
  shapeCasts_S100_S1x100 : S100.ShapeCasts S1x100
  broadcasts_S1x100_S1024x100 : S1x100.Broadcasts S1024x100
  inb_S100x384_S100x384_0_0 : ∀ a, (![0, 0] : Fin 2 → Nat) a + S100x384.size a ≤ S100x384.size a
  h_S100x384 : 0 < S100x384.numel
  shapeCasts_S100x384_S100x384 : S100x384.ShapeCasts S100x384
  inb_S384_S384_0 : ∀ a, (![0] : Fin 1 → Nat) a + S384.size a ≤ S384.size a
  h_S384 : 0 < S384.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  concatenates_S1024x128_S1024x128_S1024x256_d1 : Shape.Concatenates [S1024x128, S1024x128] S1024x256 1
  shapeCasts_S128_S1x128 : S128.ShapeCasts S1x128
  broadcasts_S1x128_S1024x128 : S1x128.Broadcasts S1024x128
  concatenates_S131072x128_S131072x128_S262144x128_d0 : Shape.Concatenates [S131072x128, S131072x128] S262144x128 0
  gather_S1000000x128_S131072x1_S131072x128_1_0_n_n_0_1_1128_wf : GatherDims.WF S1000000x128 S131072x1 S131072x128 [1] [0] [] [0] [] 1 ![1, 128]
  dot_S1024x484_S484x100_S1024x100_1_0_0_1_n_n_wf : DotDims.WF S1024x484 S484x100 S1024x100 [1] [0] [0] [1] [] []
  dot_S1024x100_S100x100_S1024x100_1_0_0_1_n_n_wf : DotDims.WF S1024x100 S100x100 S1024x100 [1] [0] [0] [1] [] []
  dot_S1024x100_S100x384_S1024x384_1_0_0_1_n_n_wf : DotDims.WF S1024x100 S100x384 S1024x384 [1] [0] [0] [1] [] []
  dot_S1024x128_S128x384_S1024x384_1_0_0_1_n_n_wf : DotDims.WF S1024x128 S128x384 S1024x384 [1] [0] [0] [1] [] []
  dot_S1024x256_S256x128_S1024x128_1_0_0_1_n_n_wf : DotDims.WF S1024x256 S256x128 S1024x128 [1] [0] [0] [1] [] []
  scatter_S1000000x128_S131072x1_S131072x128_1_0_0_1_wf : ScatterDims.WF S1000000x128 S131072x1 S131072x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .f32 = 32 ∨ (Rect.block (s := S131072x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S131072x100.size a
  hwx0_3 : ∀ i : grid0.Coords, EltTy.bits .f32 = 32 ∨ (Rect.block (s := S131072x100) S1024x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S131072x128.size a
  hwx0_4 : ∀ i : grid0.Coords, EltTy.bits .f32 = 32 ∨ (Rect.block (s := S131072x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S131072x128.size a
  hwx0_5 : ∀ i : grid0.Coords, EltTy.bits .f32 = 32 ∨ (Rect.block (s := S131072x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S484x100.size a ≤ S484x100.size a
  hwx0_6 : ∀ i : grid0.Coords, EltTy.bits .f32 = 32 ∨ (Rect.block (s := S484x100) S484x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100.size a ≤ S100.size a
  hwx0_7 : ∀ i : grid0.Coords, EltTy.bits .f32 = 32 ∨ (Rect.block (s := S100) S100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100x100.size a ≤ S100x100.size a
  hwx0_8 : ∀ i : grid0.Coords, EltTy.bits .f32 = 32 ∨ (Rect.block (s := S100x100) S100x100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S100.size a ≤ S100.size a
  hwx0_9 : ∀ i : grid0.Coords, EltTy.bits .f32 = 32 ∨ (Rect.block (s := S100) S100.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S100x384.size a ≤ S100x384.size a
  hwx0_10 : ∀ i : grid0.Coords, EltTy.bits .f32 = 32 ∨ (Rect.block (s := S100x384) S100x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384.size a ≤ S384.size a
  hwx0_11 : ∀ i : grid0.Coords, EltTy.bits .f32 = 32 ∨ (Rect.block (s := S384) S384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x384.size a ≤ S128x384.size a
  hwx0_12 : ∀ i : grid0.Coords, EltTy.bits .f32 = 32 ∨ (Rect.block (s := S128x384) S128x384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384.size a ≤ S384.size a
  hwx0_13 : ∀ i : grid0.Coords, EltTy.bits .f32 = 32 ∨ (Rect.block (s := S384) S384.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .f32 = 32 ∨ (Rect.block (s := S256x128) S256x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x128.size a ≤ S131072x128.size a
  hwx0_16 : ∀ i : grid0.Coords, EltTy.bits .f32 = 32 ∨ (Rect.block (s := S131072x128) S1024x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x128.size a ≤ S131072x128.size a
  hwx0_17 : ∀ i : grid0.Coords, EltTy.bits .f32 = 32 ∨ (Rect.block (s := S131072x128) S1024x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x128.size a ≤ S131072x128.size a
  hwx0_18 : ∀ i : grid0.Coords, EltTy.bits .f32 = 32 ∨ (Rect.block (s := S131072x128) S1024x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x128.size a ≤ S131072x128.size a
  hwx0_19 : ∀ i : grid0.Coords, EltTy.bits .f32 = 32 ∨ (Rect.block (s := S131072x128) S1024x128.size (cc0_transform_19 i) (hinb0_19 i)).WholeWords (EltTy.packing .f32)

variable [Facts₀]

def gather_S1000000x128_S131072x1_S131072x128_1_0_n_n_0_1_1128 : GatherDims S1000000x128 S131072x1 S131072x128 where
  offsetDims := [1]
  collapsedSliceDims := [0]
  operandBatchingDims := []
  startIndicesBatchingDims := []
  startIndexMap := [0]
  indexVectorDim := 1
  sliceSizes := ![1, 128]
  wf := gather_S1000000x128_S131072x1_S131072x128_1_0_n_n_0_1_1128_wf
def dot_S1024x484_S484x100_S1024x100_1_0_0_1_n_n : DotDims S1024x484 S484x100 S1024x100 where
  lhsContracting := [1]
  rhsContracting := [0]
  lhsNonContracting := [0]
  rhsNonContracting := [1]
  lhsBatch := []
  rhsBatch := []
  wf := dot_S1024x484_S484x100_S1024x100_1_0_0_1_n_n_wf
def dot_S1024x100_S100x100_S1024x100_1_0_0_1_n_n : DotDims S1024x100 S100x100 S1024x100 where
  lhsContracting := [1]
  rhsContracting := [0]
  lhsNonContracting := [0]
  rhsNonContracting := [1]
  lhsBatch := []
  rhsBatch := []
  wf := dot_S1024x100_S100x100_S1024x100_1_0_0_1_n_n_wf
def dot_S1024x100_S100x384_S1024x384_1_0_0_1_n_n : DotDims S1024x100 S100x384 S1024x384 where
  lhsContracting := [1]
  rhsContracting := [0]
  lhsNonContracting := [0]
  rhsNonContracting := [1]
  lhsBatch := []
  rhsBatch := []
  wf := dot_S1024x100_S100x384_S1024x384_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def scatter_S1000000x128_S131072x1_S131072x128_1_0_0_1 : ScatterDims S1000000x128 S131072x1 S131072x128 where
  updateWindowDims := [1]
  insertedWindowDims := [0]
  scatterDimsToOperandDims := [0]
  indexVectorDim := 1
  wf := scatter_S1000000x128_S131072x1_S131072x128_1_0_0_1_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S484x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S100x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S100.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S100x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S128x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v25_0) S1024x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v25_1) S1024x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v25_2) S1024x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v25_3) S1024x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072 : Shape := ⟨1, ![131072]⟩
abbrev S1000000x128 : Shape := ⟨2, ![1000000, 128]⟩
abbrev S100 : Shape := ⟨1, ![100]⟩
abbrev S484x100 : Shape := ⟨2, ![484, 100]⟩
abbrev S100x100 : Shape := ⟨2, ![100, 100]⟩
abbrev S384x100 : Shape := ⟨2, ![384, 100]⟩
abbrev S384 : Shape := ⟨1, ![384]⟩
abbrev S384x128 : Shape := ⟨2, ![384, 128]⟩
abbrev S256x128 : Shape := ⟨2, ![256, 128]⟩
abbrev S128 : Shape := ⟨1, ![128]⟩
abbrev S_ : Shape := ⟨0, ![]⟩
abbrev S131072x1 : Shape := ⟨2, ![131072, 1]⟩
abbrev S1x100 : Shape := ⟨2, ![1, 100]⟩
abbrev S131072x100 : Shape := ⟨2, ![131072, 100]⟩
abbrev S131072x484 : Shape := ⟨2, ![131072, 484]⟩
abbrev S100x384 : Shape := ⟨2, ![100, 384]⟩
abbrev S131072x384 : Shape := ⟨2, ![131072, 384]⟩
abbrev S1x384 : Shape := ⟨2, ![1, 384]⟩
abbrev S128x384 : Shape := ⟨2, ![128, 384]⟩
abbrev S131072x256 : Shape := ⟨2, ![131072, 256]⟩
abbrev S1x128 : Shape := ⟨2, ![1, 128]⟩
abbrev S262144x128 : Shape := ⟨2, ![262144, 128]⟩

abbrev nBuf : Space → Nat
  | .hbm => 185
  | .vmem => 0
  | .smem => 0
  | _ => 0

abbrev hbmTy0_0 (i : Nat) : BufTy := match i % 128 with
  | 0 => ⟨S131072x128, .f32⟩
  | 1 => ⟨S131072x128, .f32⟩
  | 2 => ⟨S131072x128, .f32⟩
  | 3 => ⟨S131072, .f32⟩
  | 4 => ⟨S1000000x128, .f32⟩
  | 5 => ⟨S100, .f32⟩
  | 6 => ⟨S100, .f32⟩
  | 7 => ⟨S484x100, .f32⟩
  | 8 => ⟨S100, .f32⟩
  | 9 => ⟨S100x100, .f32⟩
  | 10 => ⟨S100, .f32⟩
  | 11 => ⟨S384x100, .f32⟩
  | 12 => ⟨S384, .f32⟩
  | 13 => ⟨S384x128, .f32⟩
  | 14 => ⟨S384, .f32⟩
  | 15 => ⟨S256x128, .f32⟩
  | 16 => ⟨S128, .f32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x128, .f32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S131072x128, .f32⟩
  | 37 => ⟨S131072x1, .f32⟩
  | 38 => ⟨S1x100, .f32⟩
  | 39 => ⟨S131072x100, .f32⟩
  | 40 => ⟨S131072x100, .f32⟩
  | 41 => ⟨S131072x100, .f32⟩
  | 42 => ⟨S1x100, .f32⟩
  | 43 => ⟨S131072x100, .f32⟩
  | 44 => ⟨S131072x100, .f32⟩
  | 45 => ⟨S131072x100, .f32⟩
  | 46 => ⟨S131072x484, .f32⟩
  | 47 => ⟨S131072x484, .f32⟩
  | 48 => ⟨S131072x100, .f32⟩
  | 49 => ⟨S1x100, .f32⟩
  | 50 => ⟨S131072x100, .f32⟩
  | 51 => ⟨S131072x100, .f32⟩
  | 52 => ⟨S_, .f32⟩
  | 53 => ⟨S131072x100, .f32⟩
  | 54 => ⟨S131072x100, .f32⟩
  | 55 => ⟨S131072x100, .f32⟩
  | 56 => ⟨S1x100, .f32⟩
  | 57 => ⟨S131072x100, .f32⟩
  | 58 => ⟨S131072x100, .f32⟩
  | 59 => ⟨S131072x100, .f32⟩
  | 60 => ⟨S1x100, .f32⟩
  | 61 => ⟨S131072x100, .f32⟩
  | 62 => ⟨S131072x100, .f32⟩
  | 63 => ⟨S_, .f32⟩
  | 64 => ⟨S131072x100, .f32⟩
  | 65 => ⟨S131072x100, .f32⟩
  | 66 => ⟨S131072x100, .f32⟩
  | 67 => ⟨S1x100, .f32⟩
  | 68 => ⟨S131072x100, .f32⟩
  | 69 => ⟨S131072x100, .f32⟩
  | 70 => ⟨S100x384, .f32⟩
  | 71 => ⟨S131072x384, .f32⟩
  | 72 => ⟨S1x384, .f32⟩
  | 73 => ⟨S131072x384, .f32⟩
  | 74 => ⟨S131072x384, .f32⟩
  | 75 => ⟨S128x384, .f32⟩
  | 76 => ⟨S131072x384, .f32⟩
  | 77 => ⟨S1x384, .f32⟩
  | 78 => ⟨S131072x384, .f32⟩
  | 79 => ⟨S131072x384, .f32⟩
  | 80 => ⟨S131072x128, .f32⟩
  | 81 => ⟨S131072x128, .f32⟩
  | 82 => ⟨S131072x128, .f32⟩
  | 83 => ⟨S131072x128, .f32⟩
  | 84 => ⟨S131072x128, .f32⟩
  | 85 => ⟨S131072x128, .f32⟩
  | 86 => ⟨S131072x128, .f32⟩
  | 87 => ⟨S131072x128, .f32⟩
  | 88 => ⟨S131072x128, .f32⟩
  | 89 => ⟨S_, .f32⟩
  | 90 => ⟨S131072x128, .f32⟩
  | 91 => ⟨S131072x128, .f32⟩
  | 92 => ⟨S_, .f32⟩
  | 93 => ⟨S131072x128, .f32⟩
  | 94 => ⟨S131072x128, .f32⟩
  | 95 => ⟨S131072x128, .f32⟩
  | 96 => ⟨S131072x128, .f32⟩
  | 97 => ⟨S131072x128, .f32⟩
  | 98 => ⟨S_, .f32⟩
  | 99 => ⟨S131072x128, .f32⟩
  | 100 => ⟨S131072x128, .f32⟩
  | 101 => ⟨S_, .f32⟩
  | 102 => ⟨S131072x128, .f32⟩
  | 103 => ⟨S131072x128, .f32⟩
  | 104 => ⟨S131072x128, .f32⟩
  | 105 => ⟨S131072x128, .f32⟩
  | 106 => ⟨S131072x128, .f32⟩
  | 107 => ⟨S_, .f32⟩
  | 108 => ⟨S131072x128, .f32⟩
  | 109 => ⟨S131072x128, .f32⟩
  | 110 => ⟨S131072x128, .f32⟩
  | 111 => ⟨S131072x128, .f32⟩
  | 112 => ⟨S131072x128, .f32⟩
  | 113 => ⟨S100x384, .f32⟩
  | 114 => ⟨S131072x384, .f32⟩
  | 115 => ⟨S1x384, .f32⟩
  | 116 => ⟨S131072x384, .f32⟩
  | 117 => ⟨S131072x384, .f32⟩
  | 118 => ⟨S128x384, .f32⟩
  | 119 => ⟨S131072x384, .f32⟩
  | 120 => ⟨S1x384, .f32⟩
  | 121 => ⟨S131072x384, .f32⟩
  | 122 => ⟨S131072x384, .f32⟩
  | 123 => ⟨S131072x128, .f32⟩
  | 124 => ⟨S131072x128, .f32⟩
  | 125 => ⟨S131072x128, .f32⟩
  | 126 => ⟨S131072x128, .f32⟩
  | 127 => ⟨S131072x128, .f32⟩
  | _ => ⟨S131072x128, .f32⟩

abbrev hbmTy0_1 (i : Nat) : BufTy := match i % 128 with
  | 0 => ⟨S131072x128, .f32⟩
  | 1 => ⟨S131072x128, .f32⟩
  | 2 => ⟨S131072x128, .f32⟩
  | 3 => ⟨S131072x128, .f32⟩
  | 4 => ⟨S_, .f32⟩
  | 5 => ⟨S131072x128, .f32⟩
  | 6 => ⟨S131072x128, .f32⟩
  | 7 => ⟨S_, .f32⟩
  | 8 => ⟨S131072x128, .f32⟩
  | 9 => ⟨S131072x128, .f32⟩
  | 10 => ⟨S131072x128, .f32⟩
  | 11 => ⟨S131072x128, .f32⟩
  | 12 => ⟨S131072x128, .f32⟩
  | 13 => ⟨S_, .f32⟩
  | 14 => ⟨S131072x128, .f32⟩
  | 15 => ⟨S131072x128, .f32⟩
  | 16 => ⟨S_, .f32⟩
  | 17 => ⟨S131072x128, .f32⟩
  | 18 => ⟨S131072x128, .f32⟩
  | 19 => ⟨S131072x128, .f32⟩
  | 20 => ⟨S131072x128, .f32⟩
  | 21 => ⟨S131072x128, .f32⟩
  | 22 => ⟨S_, .f32⟩
  | 23 => ⟨S131072x128, .f32⟩
  | 24 => ⟨S131072x128, .f32⟩
  | 25 => ⟨S131072x128, .f32⟩
  | 26 => ⟨S131072x128, .f32⟩
  | 27 => ⟨S131072x128, .f32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S1000000x128, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S1000000x128, .f32⟩
  | 46 => ⟨S131072x256, .f32⟩
  | 47 => ⟨S131072x128, .f32⟩
  | 48 => ⟨S1x128, .f32⟩
  | 49 => ⟨S131072x128, .f32⟩
  | 50 => ⟨S131072x128, .f32⟩
  | 51 => ⟨S131072x256, .f32⟩
  | 52 => ⟨S131072x128, .f32⟩
  | 53 => ⟨S1x128, .f32⟩
  | 54 => ⟨S131072x128, .f32⟩
  | 55 => ⟨S131072x128, .f32⟩
  | 56 => ⟨S262144x128, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_cst : Ref sig .tc := ⟨.hbm, 63, rfl⟩
abbrev main_call1_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst : Ref sig .tc := ⟨.hbm, 89, rfl⟩
abbrev main_v62 : Ref sig .tc := ⟨.hbm, 90, rfl⟩
abbrev main_v63 : Ref sig .tc := ⟨.hbm, 91, rfl⟩
abbrev main_cst_3 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_4 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_6 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_7 : Ref sig .tc := ⟨.hbm, 132, rfl⟩
abbrev main_v100 : Ref sig .tc := ⟨.hbm, 133, rfl⟩
abbrev main_v101 : Ref sig .tc := ⟨.hbm, 134, rfl⟩
abbrev main_cst_8 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_9 : Ref sig .tc := ⟨.hbm, 141, rfl⟩
abbrev main_v107 : Ref sig .tc := ⟨.hbm, 142, rfl⟩
abbrev main_v108 : Ref sig .tc := ⟨.hbm, 143, rfl⟩
abbrev main_cst_10 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_11 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_12 : Ref sig .tc := ⟨.hbm, 156, rfl⟩
abbrev main_v119 : Ref sig .tc := ⟨.hbm, 157, rfl⟩
abbrev main_v120 : Ref sig .tc := ⟨.hbm, 158, rfl⟩
abbrev main_c_13 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_14 : Ref sig .tc := ⟨.hbm, 165, rfl⟩
abbrev main_v126 : Ref sig .tc := ⟨.hbm, 166, rfl⟩
abbrev main_v127 : Ref sig .tc := ⟨.hbm, 167, rfl⟩
abbrev main_c_15 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S100_S1x100_1 : S100.BroadcastsInDim S1x100 (![1] : Fin 1 → Fin S1x100.rank)
  bcast_S131072x1_S131072x100_0_1 : S131072x1.BroadcastsInDim S131072x100 (![0, 1] : Fin 2 → Fin S131072x100.rank)
  bcast_S1x100_S131072x100_0_1 : S1x100.BroadcastsInDim S131072x100 (![0, 1] : Fin 2 → Fin S131072x100.rank)
  concatenates_S131072x128_S131072x128_S131072x128_S131072x100_S131072x484_d1 : Shape.Concatenates [S131072x128, S131072x128, S131072x128, S131072x100] S131072x484 1
  bcast_S_S131072x100 : S_.BroadcastsInDim S131072x100 (![] : Fin 0 → Fin S131072x100.rank)
  transposes_S384x100_S100x384_1_0 : S384x100.Transposes [1, 0] S100x384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  transposes_S384x128_S128x384_1_0 : S384x128.Transposes [1, 0] S128x384
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  bcast_S_S131072x128 : S_.BroadcastsInDim S131072x128 (![] : Fin 0 → Fin S131072x128.rank)
  concatenates_S131072x128_S131072x128_S131072x256_d1 : Shape.Concatenates [S131072x128, S131072x128] S131072x256 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  concatenates_S131072x128_S131072x128_S262144x128_d0 : Shape.Concatenates [S131072x128, S131072x128] S262144x128 0
  gather_S1000000x128_S131072x1_S131072x128_1_0_n_n_0_1_1128_wf : GatherDims.WF S1000000x128 S131072x1 S131072x128 [1] [0] [] [0] [] 1 ![1, 128]
  dot_S131072x484_S484x100_S131072x100_1_0_0_1_n_n_wf : DotDims.WF S131072x484 S484x100 S131072x100 [1] [0] [0] [1] [] []
  dot_S131072x100_S100x100_S131072x100_1_0_0_1_n_n_wf : DotDims.WF S131072x100 S100x100 S131072x100 [1] [0] [0] [1] [] []
  dot_S131072x100_S100x384_S131072x384_1_0_0_1_n_n_wf : DotDims.WF S131072x100 S100x384 S131072x384 [1] [0] [0] [1] [] []
  dot_S131072x128_S128x384_S131072x384_1_0_0_1_n_n_wf : DotDims.WF S131072x128 S128x384 S131072x384 [1] [0] [0] [1] [] []
  scatter_S1000000x128_S131072x1_S131072x128_1_0_0_1_wf : ScatterDims.WF S1000000x128 S131072x1 S131072x128 [1] [0] [0] 1
  dot_S131072x256_S256x128_S131072x128_1_0_0_1_n_n_wf : DotDims.WF S131072x256 S256x128 S131072x128 [1] [0] [0] [1] [] []

variable [Facts₀]

def gather_S1000000x128_S131072x1_S131072x128_1_0_n_n_0_1_1128 : GatherDims S1000000x128 S131072x1 S131072x128 where
  offsetDims := [1]
  collapsedSliceDims := [0]
  operandBatchingDims := []
  startIndicesBatchingDims := []
  startIndexMap := [0]
  indexVectorDim := 1
  sliceSizes := ![1, 128]
  wf := gather_S1000000x128_S131072x1_S131072x128_1_0_n_n_0_1_1128_wf
def dot_S131072x484_S484x100_S131072x100_1_0_0_1_n_n : DotDims S131072x484 S484x100 S131072x100 where
  lhsContracting := [1]
  rhsContracting := [0]
  lhsNonContracting := [0]
  rhsNonContracting := [1]
  lhsBatch := []
  rhsBatch := []
  wf := dot_S131072x484_S484x100_S131072x100_1_0_0_1_n_n_wf
def dot_S131072x100_S100x100_S131072x100_1_0_0_1_n_n : DotDims S131072x100 S100x100 S131072x100 where
  lhsContracting := [1]
  rhsContracting := [0]
  lhsNonContracting := [0]
  rhsNonContracting := [1]
  lhsBatch := []
  rhsBatch := []
  wf := dot_S131072x100_S100x100_S131072x100_1_0_0_1_n_n_wf
def dot_S131072x100_S100x384_S131072x384_1_0_0_1_n_n : DotDims S131072x100 S100x384 S131072x384 where
  lhsContracting := [1]
  rhsContracting := [0]
  lhsNonContracting := [0]
  rhsNonContracting := [1]
  lhsBatch := []
  rhsBatch := []
  wf := dot_S131072x100_S100x384_S131072x384_1_0_0_1_n_n_wf
def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def scatter_S1000000x128_S131072x1_S131072x128_1_0_0_1 : ScatterDims S1000000x128 S131072x1 S131072x128 where
  updateWindowDims := [1]
  insertedWindowDims := [0]
  scatterDimsToOperandDims := [0]
  indexVectorDim := 1
  wf := scatter_S1000000x128_S131072x1_S131072x128_1_0_0_1_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«124154_j32770600468497_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.Spec.lean ====
import proofs.«124154_j32770600468497_1_alg».proof.ReferenceIdeal

noncomputable section

/-! # The layer as whole-array functions

One temporal-graph memory layer over a batch of 131072 interactions, each stage a function of whole arrays:
the memory rows of the two end points are gathered; the time stamp is encoded as `cos (t · w + b)`; the message
in each direction is a two-layer perceptron of the row `[memory of one end | memory of the other | edge | time]`;
each end's memory row is updated by a gated recurrent cell fed with the message that arrives there; the updated
rows are scattered back into the memory table (sources first, then destinations); and each end's output is an
affine map of `[updated memory | embedding]`, the two outputs stacked. Every stage acts row by row. -/

namespace Cert.ReferenceIdeal.Spec

open Idealize.ShloMosaic Cert.ReferenceIdeal

variable {F : FTy → Type} [FloatOps F] [Facts₀]
open Facts₀

/-- Node ids as gather / scatter indices: a negative id counts from the end of the table (one wrap), as a column. -/
def wrapIds (ids : IVec S131072 32) : IVec S131072x1 32 :=
  broadcastInDim S131072x1 ![0] bcast_S131072_S131072x1_0 (select (cmpi .slt ids (broadcastInDim S131072 ![] bcast_S_S131072 (constantI S_ 32 0#32))) (addi ids (broadcastInDim S131072 ![] bcast_S_S131072 (constantI S_ 32 1000000#32))) ids)

/-- The memory rows of the given nodes. -/
def memRows (mem : FVec F S1000000x128 .f32) (ids : IVec S131072 32) : FVec F S131072x128 .f32 :=
  Host.gather gather_S1000000x128_S131072x1_S131072x128_1_0_n_n_0_1_1128 mem (wrapIds ids)

/-- The time encoding `cos (t · w + b)`, one row per interaction. -/
def timeEnc (ts : FVec F S131072 .f32) (w b : FVec F S100 .f32) : FVec F S131072x100 .f32 :=
  Host.cos (addf (mulf (broadcastInDim S131072x100 ![0, 1] bcast_S131072x1_S131072x100_0_1 (broadcastInDim S131072x1 ![0] bcast_S131072_S131072x1_0 ts)) (broadcastInDim S131072x100 ![0, 1] bcast_S1x100_S131072x100_0_1 (broadcastInDim S1x100 ![1] bcast_S100_S1x100_1 w))) (broadcastInDim S131072x100 ![0, 1] bcast_S1x100_S131072x100_0_1 (broadcastInDim S1x100 ![1] bcast_S100_S1x100_1 b)))

/-- The message network's input row: this end's memory, the other end's, the edge features, the time encoding. -/
def msgIn (a b e : FVec F S131072x128 .f32) (te : FVec F S131072x100 .f32) : FVec F S131072x484 .f32 :=
  concatenate S131072x484 1 [⟨S131072x128, a⟩, ⟨S131072x128, b⟩, ⟨S131072x128, e⟩, ⟨S131072x100, te⟩] concatenates_S131072x128_S131072x128_S131072x128_S131072x100_S131072x484_d1

/-- A bias of 100 entries under every row. -/
def bias100 (b : FVec F S100 .f32) : FVec F S131072x100 .f32 :=
  broadcastInDim S131072x100 ![0, 1] bcast_S1x100_S131072x100_0_1 (broadcastInDim S1x100 ![1] bcast_S100_S1x100_1 b)
/-- A bias of 384 entries under every row. -/
def bias384 (b : FVec F S384 .f32) : FVec F S131072x384 .f32 :=
  broadcastInDim S131072x384 ![0, 1] bcast_S1x384_S131072x384_0_1 (broadcastInDim S1x384 ![1] bcast_S384_S1x384_1 b)
/-- A bias of 128 entries under every row. -/
def bias128 (b : FVec F S128 .f32) : FVec F S131072x128 .f32 :=
  broadcastInDim S131072x128 ![0, 1] bcast_S1x128_S131072x128_0_1 (broadcastInDim S1x128 ![1] bcast_S128_S1x128_1 b)

/-- The message network: `max (x · W₁ + b₁, 0) · W₂ + b₂`. -/
def message (x : FVec F S131072x484 .f32) (w1 : FVec F S484x100 .f32) (b1 : FVec F S100 .f32) (w2 : FVec F S100x100 .f32) (b2 : FVec F S100 .f32) : FVec F S131072x100 .f32 :=
  addf (Host.dotGeneral dot_S131072x100_S100x100_S131072x100_1_0_0_1_n_n none (maximumf (addf (Host.dotGeneral dot_S131072x484_S484x100_S131072x100_1_0_0_1_n_n none x w1) (bias100 b1)) (broadcastInDim S131072x100 ![] bcast_S_S131072x100 (constant S_ .f32 0x00000000#32))) w2) (bias100 b2)

/-- The all-ones array. -/
def ones : FVec F S131072x128 .f32 := broadcastInDim S131072x128 ![] bcast_S_S131072x128 (constant S_ .f32 0x3F800000#32)

/-- The logistic function `1 / (1 + e^(−x))`, entry by entry. -/
def sigm (x : FVec F S131072x128 .f32) : FVec F S131072x128 .f32 :=
  Host.divf ones (addf ones (Host.exp (Host.negf x)))

/-- The input-side gate pre-activations `x · Wᵢₕᵀ + bᵢₕ` (reset | update | new, 128 columns each). -/
def gatesIn (x : FVec F S131072x100 .f32) (wihT : FVec F S100x384 .f32) (bih : FVec F S384 .f32) : FVec F S131072x384 .f32 :=
  addf (Host.dotGeneral dot_S131072x100_S100x384_S131072x384_1_0_0_1_n_n none x wihT) (bias384 bih)
/-- The state-side gate pre-activations `h · Wₕₕᵀ + bₕₕ`. -/
def gatesHid (h : FVec F S131072x128 .f32) (whhT : FVec F S128x384 .f32) (bhh : FVec F S384 .f32) : FVec F S131072x384 .f32 :=
  addf (Host.dotGeneral dot_S131072x128_S128x384_S131072x384_1_0_0_1_n_n none h whhT) (bias384 bhh)

/-- Columns 0–127, 128–255, 256–383 of a gate array. -/
def colsR (g : FVec F S131072x384 .f32) : FVec F S131072x128 .f32 := extractStridedSlice S131072x128 ![0, 0] g slices_S131072x384_S131072x128_0_0
def colsZ (g : FVec F S131072x384 .f32) : FVec F S131072x128 .f32 := extractStridedSlice S131072x128 ![0, 128] g slices_S131072x384_S131072x128_0_128
def colsN (g : FVec F S131072x384 .f32) : FVec F S131072x128 .f32 := extractStridedSlice S131072x128 ![0, 256] g slices_S131072x384_S131072x128_0_256

/-- The gated recurrent cell from the two gate arrays: `(1 − z) · n + z · h` with `r = σ(iᵣ + hᵣ)`, `z = σ(i_z + h_z)`,
    `n = tanh (iₙ + r · hₙ)`. -/
def gruOf (gi gh : FVec F S131072x384 .f32) (h : FVec F S131072x128 .f32) : FVec F S131072x128 .f32 :=
  addf (mulf (subf ones (sigm (addf (colsZ gi) (colsZ gh)))) (Host.tanh (addf (colsN gi) (mulf (sigm (addf (colsR gi) (colsR gh))) (colsN gh))))) (mulf (sigm (addf (colsZ gi) (colsZ gh))) h)

/-- The gated recurrent cell on input `x` and state `h`. -/
def gru (x : FVec F S131072x100 .f32) (h : FVec F S131072x128 .f32) (wihT : FVec F S100x384 .f32) (bih : FVec F S384 .f32)
    (whhT : FVec F S128x384 .f32) (bhh : FVec F S384 .f32) : FVec F S131072x128 .f32 :=
  gruOf (gatesIn x wihT bih) (gatesHid h whhT bhh) h

/-- The output projection `[u | e] · W + b`. -/
def outProj (u e : FVec F S131072x128 .f32) (w : FVec F S256x128 .f32) (b : FVec F S128 .f32) : FVec F S131072x128 .f32 :=
  addf (Host.dotGeneral dot_S131072x256_S256x128_S131072x128_1_0_0_1_n_n none (concatenate S131072x256 1 [⟨S131072x128, u⟩, ⟨S131072x128, e⟩] concatenates_S131072x128_S131072x128_S131072x256_d1) w) (bias128 b)

/-- The transposed gate matrices. -/
def wihT (w : FVec F S384x100 .f32) : FVec F S100x384 .f32 := transpose S100x384 [1, 0] w transposes_S384x100_S100x384_1_0
def whhT (w : FVec F S384x128 .f32) : FVec F S128x384 .f32 := transpose S128x384 [1, 0] w transposes_S384x128_S128x384_1_0

/-- Rows written over the table's rows at the given nodes. -/
def putRows (mem : FVec F S1000000x128 .f32) (ids : IVec S131072 32) (u : FVec F S131072x128 .f32) : FVec F S1000000x128 .f32 :=
  Host.scatter scatter_S1000000x128_S131072x1_S131072x128_1_0_0_1 (fun _ b => b) mem (wrapIds ids) u

/-- The two outputs stacked: sources' rows first. -/
def stack (a b : FVec F S131072x128 .f32) : FVec F S262144x128 .f32 :=
  concatenate S262144x128 0 [⟨S131072x128, a⟩, ⟨S131072x128, b⟩] concatenates_S131072x128_S131072x128_S262144x128_d0

/-! ## The layer's arguments and its two results -/

/-- The nineteen argument arrays. -/
structure Args (F : FTy → Type) where
  srcEmb : FVec F S131072x128 .f32
  dstEmb : FVec F S131072x128 .f32
  edge : FVec F S131072x128 .f32
  ts : FVec F S131072 .f32
  mem : FVec F S1000000x128 .f32
  tw : FVec F S100 .f32
  tb : FVec F S100 .f32
  w1 : FVec F S484x100 .f32
  b1 : FVec F S100 .f32
  w2 : FVec F S100x100 .f32
  b2 : FVec F S100 .f32
  wih : FVec F S384x100 .f32
  bih : FVec F S384 .f32
  whh : FVec F S384x128 .f32
  bhh : FVec F S384 .f32
  ow : FVec F S256x128 .f32
  ob : FVec F S128 .f32
  srcIds : IVec S131072 32
  dstIds : IVec S131072 32

variable (a : Args F)

/-- The two ends' memory rows and the time encoding. -/
def srcMem : FVec F S131072x128 .f32 := memRows a.mem a.srcIds
def dstMem : FVec F S131072x128 .f32 := memRows a.mem a.dstIds
def timeEmb : FVec F S131072x100 .f32 := timeEnc a.ts a.tw a.tb

/-- The message from source to destination, and back. -/
def s2dMsg : FVec F S131072x100 .f32 := message (msgIn (srcMem a) (dstMem a) a.edge (timeEmb a)) a.w1 a.b1 a.w2 a.b2
def d2sMsg : FVec F S131072x100 .f32 := message (msgIn (dstMem a) (srcMem a) a.edge (timeEmb a)) a.w1 a.b1 a.w2 a.b2

/-- The updated memory rows of the sources and of the destinations. -/
def updSrc : FVec F S131072x128 .f32 := gru (d2sMsg a) (srcMem a) (wihT a.wih) a.bih (whhT a.whh) a.bhh
def updDst : FVec F S131072x128 .f32 := gru (s2dMsg a) (dstMem a) (wihT a.wih) a.bih (whhT a.whh) a.bhh

/-- The two ends' outputs. -/
def srcOut : FVec F S131072x128 .f32 := outProj (updSrc a) a.srcEmb a.ow a.ob
def dstOut : FVec F S131072x128 .f32 := outProj (updDst a) a.dstEmb a.ow a.ob

/-- First result: the outputs stacked. -/
def output : FVec F S262144x128 .f32 := stack (srcOut a) (dstOut a)
/-- Second result: the memory table with the sources' rows, then the destinations' rows, written back. -/
def newMemory : FVec F S1000000x128 .f32 := putRows (putRows a.mem a.srcIds (updSrc a)) a.dstIds (updDst a)

end Cert.ReferenceIdeal.Spec

end
-- ==== Proof.KernelTiles.lean ====
import proofs.«124154_j32770600468497_1_alg».proof.KernelIdeal
import Idealize.ShloMosaic.Lib.Layout

noncomputable section

/-! # The batch cut into blocks of 1024 rows

The kernel's grid has 128 points; point `t` works on rows `1024·t … 1024·t + 1023` of every batch-sized array. -/

namespace Cert.KernelIdeal.Blocks

open Idealize.ShloMosaic Idealize.ShloMosaic.Layout Cert.KernelIdeal

/-- The whole arrays' shapes with 484, 384 and 256 columns. -/
abbrev W484 : Shape := ⟨2, ![131072, 484]⟩
abbrev W384 : Shape := ⟨2, ![131072, 384]⟩
abbrev W256 : Shape := ⟨2, ![131072, 256]⟩

/-- 131072 rows are 128 blocks of 1024 rows. -/
theorem tiles128 : Tiles S1024x128 S131072x128 0 128 := by decide
theorem tiles100 : Tiles S1024x100 S131072x100 0 128 := by decide
theorem tiles484 : Tiles S1024x484 W484 0 128 := by decide
theorem tiles384 : Tiles S1024x384 W384 0 128 := by decide
theorem tiles256 : Tiles S1024x256 W256 0 128 := by decide

variable (t : Fin 128)

/-- Rows `1024·t …` of an array with 128, 100, 484, 384, 256 columns. -/
abbrev b128 {α : Type} (X : S131072x128.Idx → α) : S1024x128.Idx → α := block S1024x128 S131072x128 0 128 t X tiles128
abbrev b100 {α : Type} (X : S131072x100.Idx → α) : S1024x100.Idx → α := block S1024x100 S131072x100 0 128 t X tiles100
abbrev b484 {α : Type} (X : W484.Idx → α) : S1024x484.Idx → α := block S1024x484 W484 0 128 t X tiles484
abbrev b384 {α : Type} (X : W384.Idx → α) : S1024x384.Idx → α := block S1024x384 W384 0 128 t X tiles384
abbrev b256 {α : Type} (X : W256.Idx → α) : S1024x256.Idx → α := block S1024x256 W256 0 128 t X tiles256

end Cert.KernelIdeal.Blocks

end
-- ==== Proof.KernelBlocks.lean ====
import proofs.«124154_j32770600468497_1_alg».proof.Proof.Gen.KernelIdeal.Skeleton
import proofs.«124154_j32770600468497_1_alg».proof.Proof.Gen.ReferenceIdeal
import proofs.«124154_j32770600468497_1_alg».proof.Proof.LibRowBlock
import proofs.«124154_j32770600468497_1_alg».proof.Proof.Spec
import proofs.«124154_j32770600468497_1_alg».proof.Proof.KernelTiles

noncomputable section

/-! # The kernel body on one block of 1024 rows

The kernel body computes, from rows `1024·t … 1024·t + 1023` of its six batch-sized inputs and the whole weight
arrays, the same rows of the layer's four batch-sized results. Each of its values is the row block of the
corresponding whole-array stage: the concatenations, the products with the weight matrices (inputs rounded to a
narrower format first, which changes nothing on the extended reals), the bias rows, the column slices, and the
gates' pointwise arithmetic all act row by row. -/

namespace Cert.KernelIdeal.Blocks

open Idealize.ShloMosaic Idealize.ShloMosaic.Layout Cert.KernelIdeal Cert.KernelIdeal.Gen Cert.ReferenceIdeal.Spec

variable (t : Fin 128)

/-! ## The row-block laws at this kernel's shapes -/

section Laws

theorem cat4 (A B E : FVec Ideal S131072x128 .f32) (Tm : FVec Ideal S131072x100 .f32) :
    concatenate S1024x484 1 [⟨S1024x128, b128 t A⟩, ⟨S1024x128, b128 t B⟩, ⟨S1024x128, b128 t E⟩, ⟨S1024x100, b100 t Tm⟩] concatenates_S1024x128_S1024x128_S1024x128_S1024x100_S1024x484_d1
      = b484 t (msgIn A B E Tm) :=
  Cert.RowBlock.concat4_rows tiles128 tiles128 tiles128 tiles100 tiles484 t _ _ A B E Tm

theorem cat2 (U Em : FVec Ideal S131072x128 .f32) :
    concatenate S1024x256 1 [⟨S1024x128, b128 t U⟩, ⟨S1024x128, b128 t Em⟩] concatenates_S1024x128_S1024x128_S1024x256_d1
      = b256 t (concatenate Cert.ReferenceIdeal.S131072x256 1 [⟨Cert.ReferenceIdeal.S131072x128, U⟩, ⟨Cert.ReferenceIdeal.S131072x128, Em⟩] Cert.ReferenceIdeal.Facts₀.concatenates_S131072x128_S131072x128_S131072x256_d1) :=
  Cert.RowBlock.concat2_rows tiles128 tiles128 tiles256 t _ _ U Em

theorem dot484 (X : FVec Ideal W484 .f32) (W : FVec Ideal S484x100 .f32) :
    matmul dot_S1024x484_S484x100_S1024x100_1_0_0_1_n_n none (truncf .bf16 (b484 t X) bitsLt_bf16_f32) (truncf .bf16 W bitsLt_bf16_f32) (constant S1024x100 .f32 0x00000000#32)
      = b100 t (Host.dotGeneral Cert.ReferenceIdeal.dot_S131072x484_S484x100_S131072x100_1_0_0_1_n_n none X W) :=
  Cert.RowBlock.dot_rows_trunc _ _ _ rfl _ rfl tiles484 tiles100 none none t X W

theorem dot100 (X : FVec Ideal S131072x100 .f32) (W : FVec Ideal S100x100 .f32) :
    matmul dot_S1024x100_S100x100_S1024x100_1_0_0_1_n_n none (truncf .bf16 (b100 t X) bitsLt_bf16_f32) (truncf .bf16 W bitsLt_bf16_f32) (constant S1024x100 .f32 0x00000000#32)
      = b100 t (Host.dotGeneral Cert.ReferenceIdeal.dot_S131072x100_S100x100_S131072x100_1_0_0_1_n_n none X W) :=
  Cert.RowBlock.dot_rows_trunc _ _ _ rfl _ rfl tiles100 tiles100 none none t X W

theorem dotIh (X : FVec Ideal S131072x100 .f32) (W : FVec Ideal S100x384 .f32) :
    matmul dot_S1024x100_S100x384_S1024x384_1_0_0_1_n_n none (truncf .bf16 (b100 t X) bitsLt_bf16_f32) (truncf .bf16 W bitsLt_bf16_f32) (constant S1024x384 .f32 0x00000000#32)
      = b384 t (Host.dotGeneral Cert.ReferenceIdeal.dot_S131072x100_S100x384_S131072x384_1_0_0_1_n_n none X W) :=
  Cert.RowBlock.dot_rows_trunc _ _ _ rfl _ rfl tiles100 tiles384 none none t X W

theorem dotHh (X : FVec Ideal S131072x128 .f32) (W : FVec Ideal S128x384 .f32) :
    matmul dot_S1024x128_S128x384_S1024x384_1_0_0_1_n_n none (truncf .bf16 (b128 t X) bitsLt_bf16_f32) (truncf .bf16 W bitsLt_bf16_f32) (constant S1024x384 .f32 0x00000000#32)
      = b384 t (Host.dotGeneral Cert.ReferenceIdeal.dot_S131072x128_S128x384_S131072x384_1_0_0_1_n_n none X W) :=
  Cert.RowBlock.dot_rows_trunc _ _ _ rfl _ rfl tiles128 tiles384 none none t X W

theorem dotOut (X : FVec Ideal W256 .f32) (W : FVec Ideal S256x128 .f32) :
    matmul dot_S1024x256_S256x128_S1024x128_1_0_0_1_n_n none (truncf .bf16 (b256 t X) bitsLt_bf16_f32) (truncf .bf16 W bitsLt_bf16_f32) (constant S1024x128 .f32 0x00000000#32)
      = b128 t (Host.dotGeneral Cert.ReferenceIdeal.dot_S131072x256_S256x128_S131072x128_1_0_0_1_n_n none X W) :=
  Cert.RowBlock.dot_rows_trunc _ _ _ rfl _ rfl tiles256 tiles128 none none t X W

theorem biasRow100 (b : FVec Ideal S100 .f32) :
    broadcastTo S1024x100 (shapeCast S1x100 b shapeCasts_S100_S1x100) broadcasts_S1x100_S1024x100 = b100 t (bias100 b) :=
  Cert.RowBlock.bias_rows tiles100 t _ _ _ _ b
theorem biasRow384 (b : FVec Ideal S384 .f32) :
    broadcastTo S1024x384 (shapeCast S1x384 b shapeCasts_S384_S1x384) broadcasts_S1x384_S1024x384 = b384 t (bias384 b) :=
  Cert.RowBlock.bias_rows tiles384 t _ _ _ _ b
theorem biasRow128 (b : FVec Ideal S128 .f32) :
    broadcastTo S1024x128 (shapeCast S1x128 b shapeCasts_S128_S1x128) broadcasts_S1x128_S1024x128 = b128 t (bias128 b) :=
  Cert.RowBlock.bias_rows tiles128 t _ _ _ _ b

theorem zeros100 :
    broadcast S1024x100 (Scalar.ofBits (F := Ideal) .f32 0x00000000#32)
      = b100 t (broadcastInDim Cert.ReferenceIdeal.S131072x100 ![] Cert.ReferenceIdeal.Facts₀.bcast_S_S131072x100 (constant (F := Ideal) Cert.ReferenceIdeal.S_ .f32 0x00000000#32)) :=
  Cert.RowBlock.splat_rows tiles100 t _ _
theorem ones128 : broadcast S1024x128 (Scalar.ofBits (F := Ideal) .f32 0x3F800000#32) = b128 t (ones (F := Ideal)) :=
  Cert.RowBlock.splat_rows tiles128 t _ _

theorem sliceR (G : FVec Ideal W384 .f32) :
    extractStridedSlice S1024x128 ![0, 0] (b384 t G) slices_S1024x384_o0_0_S1024x128 = b128 t (colsR G) :=
  Cert.RowBlock.slice_rows 0 tiles384 tiles128 t _ _ G
theorem sliceZ (G : FVec Ideal W384 .f32) :
    extractStridedSlice S1024x128 ![0, 128] (b384 t G) slices_S1024x384_o0_128_S1024x128 = b128 t (colsZ G) :=
  Cert.RowBlock.slice_rows 128 tiles384 tiles128 t _ _ G
theorem sliceN (G : FVec Ideal W384 .f32) :
    extractStridedSlice S1024x128 ![0, 256] (b384 t G) slices_S1024x384_o0_256_S1024x128 = b128 t (colsN G) :=
  Cert.RowBlock.slice_rows 256 tiles384 tiles128 t _ _ G

theorem sigmRows (X : FVec Ideal S131072x128 .f32) : logistic (b128 t X) = b128 t (sigm X) :=
  Cert.RowBlock.logistic_rows tiles128 t X _

theorem add128 (X Y : FVec Ideal S131072x128 .f32) : addf (b128 t X) (b128 t Y) = b128 t (addf X Y) := rfl
theorem sub128 (X Y : FVec Ideal S131072x128 .f32) : subf (b128 t X) (b128 t Y) = b128 t (subf X Y) := rfl
theorem mul128 (X Y : FVec Ideal S131072x128 .f32) : mulf (b128 t X) (b128 t Y) = b128 t (mulf X Y) := rfl
theorem tanh128 (X : FVec Ideal S131072x128 .f32) : tanh (b128 t X) = b128 t (Host.tanh X) := rfl
theorem add100 (X Y : FVec Ideal S131072x100 .f32) : addf (b100 t X) (b100 t Y) = b100 t (addf X Y) := rfl
theorem max100 (X Y : FVec Ideal S131072x100 .f32) : maximumf (b100 t X) (b100 t Y) = b100 t (maximumf X Y) := rfl
theorem add384 (X Y : FVec Ideal W384 .f32) : addf (b384 t X) (b384 t Y) = b384 t (addf X Y) := rfl

end Laws

/-! ## The payloads -/

section Payloads

/-- The message network on a block of rows, fed `[A | B | E | Tm]`. -/
theorem pay6_rows (A B E : FVec Ideal S131072x128 .f32) (Tm : FVec Ideal S131072x100 .f32)
    (w1 : FVec Ideal S484x100 .f32) (b1 : FVec Ideal S100 .f32) (w2 : FVec Ideal S100x100 .f32) (b2 : FVec Ideal S100 .f32) :
    k0_pay6 (F := Ideal) (b128 t A) (b128 t B) (b128 t E) (b100 t Tm) w1 b1 w2 b2 = b100 t (message (msgIn A B E Tm) w1 b1 w2 b2) := by
  unfold k0_pay6 k0_pay1 k0_pay2 k0_pay3 k0_pay4 k0_pay5
  repeat rw [shapeCast_self]
  dsimp only
  rw [cat4 t, dot484 t, biasRow100 t, add100 t, zeros100 t, max100 t, dot100 t, biasRow100 t, add100 t]
  rfl

/-- The same fed `[B | A | E | Tm]`: the message in the other direction. -/
theorem pay7_rows (A B E : FVec Ideal S131072x128 .f32) (Tm : FVec Ideal S131072x100 .f32)
    (w1 : FVec Ideal S484x100 .f32) (b1 : FVec Ideal S100 .f32) (w2 : FVec Ideal S100x100 .f32) (b2 : FVec Ideal S100 .f32) :
    k0_pay7 (F := Ideal) (b128 t A) (b128 t B) (b128 t E) (b100 t Tm) w1 b1 w2 b2 = b100 t (message (msgIn B A E Tm) w1 b1 w2 b2) := by
  unfold k0_pay7 k0_pay1 k0_pay2 k0_pay3 k0_pay4 k0_pay5
  repeat rw [shapeCast_self]
  dsimp only
  rw [cat4 t, dot484 t, biasRow100 t, add100 t, zeros100 t, max100 t, dot100 t, biasRow100 t, add100 t]
  rfl

/-- The input-side gates on a block of rows. -/
theorem pay11_rows (X : FVec Ideal S131072x100 .f32) (wT : FVec Ideal S100x384 .f32) (bih : FVec Ideal S384 .f32) :
    k0_pay11 (F := Ideal) (b100 t X) wT bih = b384 t (gatesIn X wT bih) := by
  unfold k0_pay11 k0_pay8
  repeat rw [shapeCast_self]
  dsimp only
  rw [dotIh t, biasRow384 t, add384 t]
  rfl

/-- The state-side gates on a block of rows. -/
theorem pay12_rows (H : FVec Ideal S131072x128 .f32) (wT : FVec Ideal S128x384 .f32) (bhh : FVec Ideal S384 .f32) :
    k0_pay12 (F := Ideal) (b128 t H) wT bhh = b384 t (gatesHid H wT bhh) := by
  unfold k0_pay12 k0_pay9
  repeat rw [shapeCast_self]
  dsimp only
  rw [dotHh t, biasRow384 t, add384 t]
  rfl

theorem pay13_rows (X : FVec Ideal S131072x100 .f32) (wT : FVec Ideal S100x384 .f32) (bih : FVec Ideal S384 .f32) :
    k0_pay13 (F := Ideal) (b100 t X) wT bih = b128 t (colsR (gatesIn X wT bih)) := by
  unfold k0_pay13; rw [pay11_rows t, sliceR t]
theorem pay14_rows (X : FVec Ideal S131072x100 .f32) (wT : FVec Ideal S100x384 .f32) (bih : FVec Ideal S384 .f32) :
    k0_pay14 (F := Ideal) (b100 t X) wT bih = b128 t (colsZ (gatesIn X wT bih)) := by
  unfold k0_pay14; rw [pay11_rows t, sliceZ t]
theorem pay15_rows (X : FVec Ideal S131072x100 .f32) (wT : FVec Ideal S100x384 .f32) (bih : FVec Ideal S384 .f32) :
    k0_pay15 (F := Ideal) (b100 t X) wT bih = b128 t (colsN (gatesIn X wT bih)) := by
  unfold k0_pay15; rw [pay11_rows t, sliceN t]

/-- The cell from the input-side gate columns `R`, `Z`, `Nn`, the state-side gates `GH` and the state `H`:
    `(1 − z) · n + z · H` with `r = σ(R + GHᵣ)`, `z = σ(Z + GH_z)`, `n = tanh (Nn + r · GHₙ)`. -/
def cellOf (R Z Nn : FVec Ideal S131072x128 .f32) (GH : FVec Ideal W384 .f32) (H : FVec Ideal S131072x128 .f32) : FVec Ideal S131072x128 .f32 :=
  addf (mulf (subf ones (sigm (addf Z (colsZ GH)))) (Host.tanh (addf Nn (mulf (sigm (addf R (colsR GH))) (colsN GH))))) (mulf (sigm (addf Z (colsZ GH))) H)

/-- The cell of the two gate arrays is the cell of the input side's three column groups. -/
theorem gruOf_eq (GI GH : FVec Ideal W384 .f32) (H : FVec Ideal S131072x128 .f32) :
    gruOf GI GH H = cellOf (colsR GI) (colsZ GI) (colsN GI) GH H := rfl

/-- A block passed through an identity reshape is the block. -/
theorem pay1_rows (A : FVec Ideal S131072x128 .f32) : k0_pay1 (F := Ideal) (b128 t A) = b128 t A := shapeCast_self _ _
theorem pay2_rows (A : FVec Ideal S131072x128 .f32) : k0_pay2 (F := Ideal) (b128 t A) = b128 t A := shapeCast_self _ _

/-- The cell's arithmetic on a block of rows, from the gates' blocks. -/
theorem gates_rows (H R Z Nn : FVec Ideal S131072x128 .f32) (GH : FVec Ideal W384 .f32) :
    k0_pay16 (F := Ideal) (b128 t H) (b384 t GH) (b128 t R) (b128 t Z) (b128 t Nn) = b128 t (cellOf R Z Nn GH H) := by
  unfold k0_pay16
  dsimp only
  rw [sliceR t, sliceZ t, sliceN t, add128 t, sigmRows t, add128 t, sigmRows t, mul128 t, add128 t, tanh128 t, ones128 t, sub128 t, mul128 t, mul128 t, add128 t]
  rfl

/-- The updated memory rows on a block, the cell written out in one payload. -/
theorem pay10_rows (H : FVec Ideal S131072x128 .f32) (X : FVec Ideal S131072x100 .f32)
    (wihT : FVec Ideal S100x384 .f32) (bih : FVec Ideal S384 .f32) (whhT : FVec Ideal S128x384 .f32) (bhh : FVec Ideal S384 .f32) :
    k0_pay10 (F := Ideal) (b128 t H) (b100 t X) wihT bih whhT bhh = b128 t (gru X H wihT bih whhT bhh) := by
  unfold k0_pay10 k0_pay8 k0_pay9
  repeat rw [shapeCast_self]
  dsimp only
  rw [dotIh t, biasRow384 t, add384 t, dotHh t, biasRow384 t, add384 t]
  rw [sliceR t, sliceZ t, sliceN t, sliceR t, sliceZ t, sliceN t, add128 t, sigmRows t, add128 t, sigmRows t, mul128 t, add128 t, tanh128 t, ones128 t, sub128 t, mul128 t, mul128 t, add128 t]
  rfl

/-- The output projection on a block of rows. -/
theorem pay18_rows (U Em : FVec Ideal S131072x128 .f32) (ow : FVec Ideal S256x128 .f32) (ob : FVec Ideal S128 .f32) :
    k0_pay18 (F := Ideal) (b128 t U) ow ob (b128 t Em) = b128 t (outProj U Em ow ob) := by
  unfold k0_pay18 k0_pay17
  dsimp only
  rw [cat2 t, dotOut t, biasRow128 t, add128 t]
  rfl

/-- The output projection of the cell's result, on a block of rows. -/
theorem pay19_rows (H R Z Nn : FVec Ideal S131072x128 .f32) (GH : FVec Ideal W384 .f32)
    (ow : FVec Ideal S256x128 .f32) (ob : FVec Ideal S128 .f32) (Em : FVec Ideal S131072x128 .f32) :
    k0_pay19 (F := Ideal) (b128 t H) (b384 t GH) (b128 t R) (b128 t Z) (b128 t Nn) ow ob (b128 t Em)
      = b128 t (outProj (cellOf R Z Nn GH H) Em ow ob) := by
  unfold k0_pay19 k0_pay17
  dsimp only
  rw [gates_rows t, cat2 t, dotOut t, biasRow128 t, add128 t]
  rfl

end Payloads

end Cert.KernelIdeal.Blocks

end
-- ==== Proof.KernelCover.lean ====
import proofs.«124154_j32770600468497_1_alg».proof.Proof.Gen.KernelIdeal.Frame
import proofs.«124154_j32770600468497_1_alg».proof.Proof.KernelTiles
import Idealize.ShloMosaic.Lib.Pipeline.Value

noncomputable section

/-! # The windows' blocks, and the output arrays from their blocks

Window `w`'s block at grid point `t` is rows `1024·t …` of its array for the six batch-sized inputs and the four
outputs, and the whole array for the ten weight arrays. The 128 output blocks tile each output array, so an
output array whose every flushed block is the row block of one function `G` ends as `G`. -/

namespace Cert.KernelIdeal.Cover

open Idealize.ShloMosaic Idealize.ShloMosaic.TcCoe Idealize.ShloMosaic.Layout
open Idealize.SL Idealize.SL.Sem
open Cert.KernelIdeal Cert.KernelIdeal.Gen Cert.KernelIdeal.Blocks

variable {F : FTy → Type} [FloatOps F]
variable (m : (ℓ : Loc nD τ sig) → Buf (Elt F) ℓ)

/-- A grid point as a block number. -/
def pt (t : Fin cfg0.N) : Fin 128 := ⟨t.val, by have h := t.isLt; have e : cfg0.N = 128 := N_0; omega⟩

/-! ## Reading an array through a window's block

An element of a block sits in the array, on each axis, at the block's index times the block's size plus its own
coordinate. The index maps are decided once over the 128 grid points: block `t` on the rows and block 0 on the
columns for the batch-sized windows, block 0 on every axis for the weight windows. -/

/-- Window 0's index map at point `t`: block `t` on the rows, block 0 on the columns. -/
theorem idx0 : ∀ t : Fin cfg0.N, win0_0.index t (0 : Fin 2) = t.val ∧ win0_0.index t (1 : Fin 2) = 0 :=
  (by decide +kernel : ∀ t : Fin grid0.N, _)

theorem read0 (G : S131072x128.Idx → F .f32) (t : Fin cfg0.N) : ((cfg0.win 0).blk t).view.read (Elt F) G = b128 (pt t) G := by
  funext j
  show G (((cfg0.win 0).blk t).view.emb j) = G (tiles128.idx (pt t) j)
  congr 1
  obtain ⟨e0, e1⟩ := idx0 t
  funext a; apply Fin.ext
  match a with
  | ⟨0, _⟩ => show win0_0.index t (0 : Fin 2) * 1024 + 1 * (j 0).val = t.val * 1024 + (j 0).val; omega
  | ⟨1, _⟩ => show win0_0.index t (1 : Fin 2) * 128 + 1 * (j 1).val = (j 1).val; omega

/-- Window 1's index map at point `t`: block `t` on the rows, block 0 on the columns. -/
theorem idx1 : ∀ t : Fin cfg0.N, win0_1.index t (0 : Fin 2) = t.val ∧ win0_1.index t (1 : Fin 2) = 0 :=
  (by decide +kernel : ∀ t : Fin grid0.N, _)

theorem read1 (G : S131072x128.Idx → F .f32) (t : Fin cfg0.N) : ((cfg0.win 1).blk t).view.read (Elt F) G = b128 (pt t) G := by
  funext j
  show G (((cfg0.win 1).blk t).view.emb j) = G (tiles128.idx (pt t) j)
  congr 1
  obtain ⟨e0, e1⟩ := idx1 t
  funext a; apply Fin.ext
  match a with
  | ⟨0, _⟩ => show win0_1.index t (0 : Fin 2) * 1024 + 1 * (j 0).val = t.val * 1024 + (j 0).val; omega
  | ⟨1, _⟩ => show win0_1.index t (1 : Fin 2) * 128 + 1 * (j 1).val = (j 1).val; omega

/-- Window 2's index map at point `t`: block `t` on the rows, block 0 on the columns. -/
theorem idx2 : ∀ t : Fin cfg0.N, win0_2.index t (0 : Fin 2) = t.val ∧ win0_2.index t (1 : Fin 2) = 0 :=
  (by decide +kernel : ∀ t : Fin grid0.N, _)

theorem read2 (G : S131072x128.Idx → F .f32) (t : Fin cfg0.N) : ((cfg0.win 2).blk t).view.read (Elt F) G = b128 (pt t) G := by
  funext j
  show G (((cfg0.win 2).blk t).view.emb j) = G (tiles128.idx (pt t) j)
  congr 1
  obtain ⟨e0, e1⟩ := idx2 t
  funext a; apply Fin.ext
  match a with
  | ⟨0, _⟩ => show win0_2.index t (0 : Fin 2) * 1024 + 1 * (j 0).val = t.val * 1024 + (j 0).val; omega
  | ⟨1, _⟩ => show win0_2.index t (1 : Fin 2) * 128 + 1 * (j 1).val = (j 1).val; omega

/-- Window 3's index map at point `t`: block `t` on the rows, block 0 on the columns. -/
theorem idx3 : ∀ t : Fin cfg0.N, win0_3.index t (0 : Fin 2) = t.val ∧ win0_3.index t (1 : Fin 2) = 0 :=
  (by decide +kernel : ∀ t : Fin grid0.N, _)

theorem read3 (G : S131072x100.Idx → F .f32) (t : Fin cfg0.N) : ((cfg0.win 3).blk t).view.read (Elt F) G = b100 (pt t) G := by
  funext j
  show G (((cfg0.win 3).blk t).view.emb j) = G (tiles100.idx (pt t) j)
  congr 1
  obtain ⟨e0, e1⟩ := idx3 t
  funext a; apply Fin.ext
  match a with
  | ⟨0, _⟩ => show win0_3.index t (0 : Fin 2) * 1024 + 1 * (j 0).val = t.val * 1024 + (j 0).val; omega
  | ⟨1, _⟩ => show win0_3.index t (1 : Fin 2) * 100 + 1 * (j 1).val = (j 1).val; omega

/-- Window 4's index map at point `t`: block `t` on the rows, block 0 on the columns. -/
theorem idx4 : ∀ t : Fin cfg0.N, win0_4.index t (0 : Fin 2) = t.val ∧ win0_4.index t (1 : Fin 2) = 0 :=
  (by decide +kernel : ∀ t : Fin grid0.N, _)

theorem read4 (G : S131072x128.Idx → F .f32) (t : Fin cfg0.N) : ((cfg0.win 4).blk t).view.read (Elt F) G = b128 (pt t) G := by
  funext j
  show G (((cfg0.win 4).blk t).view.emb j) = G (tiles128.idx (pt t) j)
  congr 1
  obtain ⟨e0, e1⟩ := idx4 t
  funext a; apply Fin.ext
  match a with
  | ⟨0, _⟩ => show win0_4.index t (0 : Fin 2) * 1024 + 1 * (j 0).val = t.val * 1024 + (j 0).val; omega
  | ⟨1, _⟩ => show win0_4.index t (1 : Fin 2) * 128 + 1 * (j 1).val = (j 1).val; omega

/-- Window 5's index map at point `t`: block `t` on the rows, block 0 on the columns. -/
theorem idx5 : ∀ t : Fin cfg0.N, win0_5.index t (0 : Fin 2) = t.val ∧ win0_5.index t (1 : Fin 2) = 0 :=
  (by decide +kernel : ∀ t : Fin grid0.N, _)

theorem read5 (G : S131072x128.Idx → F .f32) (t : Fin cfg0.N) : ((cfg0.win 5).blk t).view.read (Elt F) G = b128 (pt t) G := by
  funext j
  show G (((cfg0.win 5).blk t).view.emb j) = G (tiles128.idx (pt t) j)
  congr 1
  obtain ⟨e0, e1⟩ := idx5 t
  funext a; apply Fin.ext
  match a with
  | ⟨0, _⟩ => show win0_5.index t (0 : Fin 2) * 1024 + 1 * (j 0).val = t.val * 1024 + (j 0).val; omega
  | ⟨1, _⟩ => show win0_5.index t (1 : Fin 2) * 128 + 1 * (j 1).val = (j 1).val; omega

/-- Window 6's index map is constant: block 0 on both axes. -/
theorem idx6 : ∀ t : Fin cfg0.N, win0_6.index t (0 : Fin 2) = 0 ∧ win0_6.index t (1 : Fin 2) = 0 :=
  (by decide +kernel : ∀ t : Fin grid0.N, _)

theorem read6 (G : S484x100.Idx → F .f32) (t : Fin cfg0.N) : ((cfg0.win 6).blk t).view.read (Elt F) G = G := by
  funext j
  show G (((cfg0.win 6).blk t).view.emb j) = G j
  congr 1
  obtain ⟨e0, e1⟩ := idx6 t
  funext a; apply Fin.ext
  match a with
  | ⟨0, _⟩ => show win0_6.index t (0 : Fin 2) * 484 + 1 * (j 0).val = (j 0).val; omega
  | ⟨1, _⟩ => show win0_6.index t (1 : Fin 2) * 100 + 1 * (j 1).val = (j 1).val; omega

/-- Window 7's index map is constant: block 0. -/
theorem idx7 : ∀ t : Fin cfg0.N, win0_7.index t (0 : Fin 1) = 0 :=
  (by decide +kernel : ∀ t : Fin grid0.N, _)

theorem read7 (G : S100.Idx → F .f32) (t : Fin cfg0.N) : ((cfg0.win 7).blk t).view.read (Elt F) G = G := by
  funext j
  show G (((cfg0.win 7).blk t).view.emb j) = G j
  congr 1
  have e0 := idx7 t
  funext a; apply Fin.ext
  match a with
  | ⟨0, _⟩ => show win0_7.index t (0 : Fin 1) * 100 + 1 * (j 0).val = (j 0).val; omega

/-- Window 8's index map is constant: block 0 on both axes. -/
theorem idx8 : ∀ t : Fin cfg0.N, win0_8.index t (0 : Fin 2) = 0 ∧ win0_8.index t (1 : Fin 2) = 0 :=
  (by decide +kernel : ∀ t : Fin grid0.N, _)

theorem read8 (G : S100x100.Idx → F .f32) (t : Fin cfg0.N) : ((cfg0.win 8).blk t).view.read (Elt F) G = G := by
  funext j
  show G (((cfg0.win 8).blk t).view.emb j) = G j
  congr 1
  obtain ⟨e0, e1⟩ := idx8 t
  funext a; apply Fin.ext
  match a with
  | ⟨0, _⟩ => show win0_8.index t (0 : Fin 2) * 100 + 1 * (j 0).val = (j 0).val; omega
  | ⟨1, _⟩ => show win0_8.index t (1 : Fin 2) * 100 + 1 * (j 1).val = (j 1).val; omega

/-- Window 9's index map is constant: block 0. -/
theorem idx9 : ∀ t : Fin cfg0.N, win0_9.index t (0 : Fin 1) = 0 :=
  (by decide +kernel : ∀ t : Fin grid0.N, _)

theorem read9 (G : S100.Idx → F .f32) (t : Fin cfg0.N) : ((cfg0.win 9).blk t).view.read (Elt F) G = G := by
  funext j
  show G (((cfg0.win 9).blk t).view.emb j) = G j
  congr 1
  have e0 := idx9 t
  funext a; apply Fin.ext
  match a with
  | ⟨0, _⟩ => show win0_9.index t (0 : Fin 1) * 100 + 1 * (j 0).val = (j 0).val; omega

/-- Window 10's index map is constant: block 0 on both axes. -/
theorem idx10 : ∀ t : Fin cfg0.N, win0_10.index t (0 : Fin 2) = 0 ∧ win0_10.index t (1 : Fin 2) = 0 :=
  (by decide +kernel : ∀ t : Fin grid0.N, _)

theorem read10 (G : S100x384.Idx → F .f32) (t : Fin cfg0.N) : ((cfg0.win 10).blk t).view.read (Elt F) G = G := by
  funext j
  show G (((cfg0.win 10).blk t).view.emb j) = G j
  congr 1
  obtain ⟨e0, e1⟩ := idx10 t
  funext a; apply Fin.ext
  match a with
  | ⟨0, _⟩ => show win0_10.index t (0 : Fin 2) * 100 + 1 * (j 0).val = (j 0).val; omega
  | ⟨1, _⟩ => show win0_10.index t (1 : Fin 2) * 384 + 1 * (j 1).val = (j 1).val; omega

/-- Window 11's index map is constant: block 0. -/
theorem idx11 : ∀ t : Fin cfg0.N, win0_11.index t (0 : Fin 1) = 0 :=
  (by decide +kernel : ∀ t : Fin grid0.N, _)

theorem read11 (G : S384.Idx → F .f32) (t : Fin cfg0.N) : ((cfg0.win 11).blk t).view.read (Elt F) G = G := by
  funext j
  show G (((cfg0.win 11).blk t).view.emb j) = G j
  congr 1
  have e0 := idx11 t
  funext a; apply Fin.ext
  match a with
  | ⟨0, _⟩ => show win0_11.index t (0 : Fin 1) * 384 + 1 * (j 0).val = (j 0).val; omega

/-- Window 12's index map is constant: block 0 on both axes. -/
theorem idx12 : ∀ t : Fin cfg0.N, win0_12.index t (0 : Fin 2) = 0 ∧ win0_12.index t (1 : Fin 2) = 0 :=
  (by decide +kernel : ∀ t : Fin grid0.N, _)

theorem read12 (G : S128x384.Idx → F .f32) (t : Fin cfg0.N) : ((cfg0.win 12).blk t).view.read (Elt F) G = G := by
  funext j
  show G (((cfg0.win 12).blk t).view.emb j) = G j
  congr 1
  obtain ⟨e0, e1⟩ := idx12 t
  funext a; apply Fin.ext
  match a with
  | ⟨0, _⟩ => show win0_12.index t (0 : Fin 2) * 128 + 1 * (j 0).val = (j 0).val; omega
  | ⟨1, _⟩ => show win0_12.index t (1 : Fin 2) * 384 + 1 * (j 1).val = (j 1).val; omega

/-- Window 13's index map is constant: block 0. -/
theorem idx13 : ∀ t : Fin cfg0.N, win0_13.index t (0 : Fin 1) = 0 :=
  (by decide +kernel : ∀ t : Fin grid0.N, _)

theorem read13 (G : S384.Idx → F .f32) (t : Fin cfg0.N) : ((cfg0.win 13).blk t).view.read (Elt F) G = G := by
  funext j
  show G (((cfg0.win 13).blk t).view.emb j) = G j
  congr 1
  have e0 := idx13 t
  funext a; apply Fin.ext
  match a with
  | ⟨0, _⟩ => show win0_13.index t (0 : Fin 1) * 384 + 1 * (j 0).val = (j 0).val; omega

/-- Window 14's index map is constant: block 0 on both axes. -/
theorem idx14 : ∀ t : Fin cfg0.N, win0_14.index t (0 : Fin 2) = 0 ∧ win0_14.index t (1 : Fin 2) = 0 :=
  (by decide +kernel : ∀ t : Fin grid0.N, _)

theorem read14 (G : S256x128.Idx → F .f32) (t : Fin cfg0.N) : ((cfg0.win 14).blk t).view.read (Elt F) G = G := by
  funext j
  show G (((cfg0.win 14).blk t).view.emb j) = G j
  congr 1
  obtain ⟨e0, e1⟩ := idx14 t
  funext a; apply Fin.ext
  match a with
  | ⟨0, _⟩ => show win0_14.index t (0 : Fin 2) * 256 + 1 * (j 0).val = (j 0).val; omega
  | ⟨1, _⟩ => show win0_14.index t (1 : Fin 2) * 128 + 1 * (j 1).val = (j 1).val; omega

/-- Window 15's index map is constant: block 0. -/
theorem idx15 : ∀ t : Fin cfg0.N, win0_15.index t (0 : Fin 1) = 0 :=
  (by decide +kernel : ∀ t : Fin grid0.N, _)

theorem read15 (G : S128.Idx → F .f32) (t : Fin cfg0.N) : ((cfg0.win 15).blk t).view.read (Elt F) G = G := by
  funext j
  show G (((cfg0.win 15).blk t).view.emb j) = G j
  congr 1
  have e0 := idx15 t
  funext a; apply Fin.ext
  match a with
  | ⟨0, _⟩ => show win0_15.index t (0 : Fin 1) * 128 + 1 * (j 0).val = (j 0).val; omega

/-- Window 16's index map at point `t`: block `t` on the rows, block 0 on the columns. -/
theorem idx16 : ∀ t : Fin cfg0.N, win0_16.index t (0 : Fin 2) = t.val ∧ win0_16.index t (1 : Fin 2) = 0 :=
  (by decide +kernel : ∀ t : Fin grid0.N, _)

theorem read16 (G : S131072x128.Idx → F .f32) (t : Fin cfg0.N) : ((cfg0.win 16).blk t).view.read (Elt F) G = b128 (pt t) G := by
  funext j
  show G (((cfg0.win 16).blk t).view.emb j) = G (tiles128.idx (pt t) j)
  congr 1
  obtain ⟨e0, e1⟩ := idx16 t
  funext a; apply Fin.ext
  match a with
  | ⟨0, _⟩ => show win0_16.index t (0 : Fin 2) * 1024 + 1 * (j 0).val = t.val * 1024 + (j 0).val; omega
  | ⟨1, _⟩ => show win0_16.index t (1 : Fin 2) * 128 + 1 * (j 1).val = (j 1).val; omega

/-- Window 17's index map at point `t`: block `t` on the rows, block 0 on the columns. -/
theorem idx17 : ∀ t : Fin cfg0.N, win0_17.index t (0 : Fin 2) = t.val ∧ win0_17.index t (1 : Fin 2) = 0 :=
  (by decide +kernel : ∀ t : Fin grid0.N, _)

theorem read17 (G : S131072x128.Idx → F .f32) (t : Fin cfg0.N) : ((cfg0.win 17).blk t).view.read (Elt F) G = b128 (pt t) G := by
  funext j
  show G (((cfg0.win 17).blk t).view.emb j) = G (tiles128.idx (pt t) j)
  congr 1
  obtain ⟨e0, e1⟩ := idx17 t
  funext a; apply Fin.ext
  match a with
  | ⟨0, _⟩ => show win0_17.index t (0 : Fin 2) * 1024 + 1 * (j 0).val = t.val * 1024 + (j 0).val; omega
  | ⟨1, _⟩ => show win0_17.index t (1 : Fin 2) * 128 + 1 * (j 1).val = (j 1).val; omega

/-- Window 18's index map at point `t`: block `t` on the rows, block 0 on the columns. -/
theorem idx18 : ∀ t : Fin cfg0.N, win0_18.index t (0 : Fin 2) = t.val ∧ win0_18.index t (1 : Fin 2) = 0 :=
  (by decide +kernel : ∀ t : Fin grid0.N, _)

theorem read18 (G : S131072x128.Idx → F .f32) (t : Fin cfg0.N) : ((cfg0.win 18).blk t).view.read (Elt F) G = b128 (pt t) G := by
  funext j
  show G (((cfg0.win 18).blk t).view.emb j) = G (tiles128.idx (pt t) j)
  congr 1
  obtain ⟨e0, e1⟩ := idx18 t
  funext a; apply Fin.ext
  match a with
  | ⟨0, _⟩ => show win0_18.index t (0 : Fin 2) * 1024 + 1 * (j 0).val = t.val * 1024 + (j 0).val; omega
  | ⟨1, _⟩ => show win0_18.index t (1 : Fin 2) * 128 + 1 * (j 1).val = (j 1).val; omega

/-- Window 19's index map at point `t`: block `t` on the rows, block 0 on the columns. -/
theorem idx19 : ∀ t : Fin cfg0.N, win0_19.index t (0 : Fin 2) = t.val ∧ win0_19.index t (1 : Fin 2) = 0 :=
  (by decide +kernel : ∀ t : Fin grid0.N, _)

theorem read19 (G : S131072x128.Idx → F .f32) (t : Fin cfg0.N) : ((cfg0.win 19).blk t).view.read (Elt F) G = b128 (pt t) G := by
  funext j
  show G (((cfg0.win 19).blk t).view.emb j) = G (tiles128.idx (pt t) j)
  congr 1
  obtain ⟨e0, e1⟩ := idx19 t
  funext a; apply Fin.ext
  match a with
  | ⟨0, _⟩ => show win0_19.index t (0 : Fin 2) * 1024 + 1 * (j 0).val = t.val * 1024 + (j 0).val; omega
  | ⟨1, _⟩ => show win0_19.index t (1 : Fin 2) * 128 + 1 * (j 1).val = (j 1).val; omega

/-! ## An output array from its flushed blocks

Row `r` of an output array lies in the block of point `r / 1024`, and every point writes its block back: the 128
blocks cover the array. -/

/-- An index of window 16's array is in point `t`'s block iff each coordinate is in the block's range on its axis. -/
theorem mem_blk16 (t : Fin cfg0.N) (i : S131072x128.Idx) :
    i ∈ ((cfg0.win 16).blk t).view.set ↔ ∀ a : Fin 2, win0_16.index t a * S1024x128.size a ≤ (i a).val ∧ (i a).val < win0_16.index t a * S1024x128.size a + S1024x128.size a := by
  show i ∈ ((View.whole main_v25_0).slice (win0_16.rect t)).set ↔ _
  rw [View.set_slice_whole, Rect.mem_set_unit]
  exact Iff.rfl

/-- Every index of window 16's array is in the block of a point that writes it back. -/
theorem cover16 (i : S131072x128.Idx) : ∃ t : Fin cfg0.N, (cfg0.win 16).flush t = true ∧ i ∈ ((cfg0.win 16).blk t).view.set := by
  have hi0 : (i 0).val < 131072 := (i 0).isLt
  have hi1 : (i 1).val < 128 := (i 1).isLt
  have hN : cfg0.N = 128 := N_0
  obtain ⟨t, ht⟩ : ∃ t : Fin cfg0.N, t.val = (i 0).val / 1024 := ⟨⟨(i 0).val / 1024, by omega⟩, rfl⟩
  obtain ⟨e0, e1⟩ := idx16 t
  refine ⟨t, flush0_16 t, ?_⟩
  rw [mem_blk16]
  intro a
  match a with
  | ⟨0, _⟩ => show win0_16.index t (0 : Fin 2) * 1024 ≤ (i 0).val ∧ (i 0).val < win0_16.index t (0 : Fin 2) * 1024 + 1024; omega
  | ⟨1, _⟩ => show win0_16.index t (1 : Fin 2) * 128 ≤ (i 1).val ∧ (i 1).val < win0_16.index t (1 : Fin 2) * 128 + 128; omega

theorem final16 (c : Dev nD) (G : S131072x128.Idx → F .f32)
    (hG : ∀ t : Fin cfg0.N, (dats m 0 c).flushed 16 t = b128 (pt t) G) : (dats m 0 c).arrAt 16 cfg0.N = G :=
  (dats m 0 c).arrAt_eq_of_cover 16 G (fun t _ => (hG t).trans (read16 G t).symm) cover16

/-- An index of window 17's array is in point `t`'s block iff each coordinate is in the block's range on its axis. -/
theorem mem_blk17 (t : Fin cfg0.N) (i : S131072x128.Idx) :
    i ∈ ((cfg0.win 17).blk t).view.set ↔ ∀ a : Fin 2, win0_17.index t a * S1024x128.size a ≤ (i a).val ∧ (i a).val < win0_17.index t a * S1024x128.size a + S1024x128.size a := by
  show i ∈ ((View.whole main_v25_1).slice (win0_17.rect t)).set ↔ _
  rw [View.set_slice_whole, Rect.mem_set_unit]
  exact Iff.rfl

/-- Every index of window 17's array is in the block of a point that writes it back. -/
theorem cover17 (i : S131072x128.Idx) : ∃ t : Fin cfg0.N, (cfg0.win 17).flush t = true ∧ i ∈ ((cfg0.win 17).blk t).view.set := by
  have hi0 : (i 0).val < 131072 := (i 0).isLt
  have hi1 : (i 1).val < 128 := (i 1).isLt
  have hN : cfg0.N = 128 := N_0
  obtain ⟨t, ht⟩ : ∃ t : Fin cfg0.N, t.val = (i 0).val / 1024 := ⟨⟨(i 0).val / 1024, by omega⟩, rfl⟩
  obtain ⟨e0, e1⟩ := idx17 t
  refine ⟨t, flush0_17 t, ?_⟩
  rw [mem_blk17]
  intro a
  match a with
  | ⟨0, _⟩ => show win0_17.index t (0 : Fin 2) * 1024 ≤ (i 0).val ∧ (i 0).val < win0_17.index t (0 : Fin 2) * 1024 + 1024; omega
  | ⟨1, _⟩ => show win0_17.index t (1 : Fin 2) * 128 ≤ (i 1).val ∧ (i 1).val < win0_17.index t (1 : Fin 2) * 128 + 128; omega

theorem final17 (c : Dev nD) (G : S131072x128.Idx → F .f32)
    (hG : ∀ t : Fin cfg0.N, (dats m 0 c).flushed 17 t = b128 (pt t) G) : (dats m 0 c).arrAt 17 cfg0.N = G :=
  (dats m 0 c).arrAt_eq_of_cover 17 G (fun t _ => (hG t).trans (read17 G t).symm) cover17

/-- An index of window 18's array is in point `t`'s block iff each coordinate is in the block's range on its axis. -/
theorem mem_blk18 (t : Fin cfg0.N) (i : S131072x128.Idx) :
    i ∈ ((cfg0.win 18).blk t).view.set ↔ ∀ a : Fin 2, win0_18.index t a * S1024x128.size a ≤ (i a).val ∧ (i a).val < win0_18.index t a * S1024x128.size a + S1024x128.size a := by
  show i ∈ ((View.whole main_v25_2).slice (win0_18.rect t)).set ↔ _
  rw [View.set_slice_whole, Rect.mem_set_unit]
  exact Iff.rfl

/-- Every index of window 18's array is in the block of a point that writes it back. -/
theorem cover18 (i : S131072x128.Idx) : ∃ t : Fin cfg0.N, (cfg0.win 18).flush t = true ∧ i ∈ ((cfg0.win 18).blk t).view.set := by
  have hi0 : (i 0).val < 131072 := (i 0).isLt
  have hi1 : (i 1).val < 128 := (i 1).isLt
  have hN : cfg0.N = 128 := N_0
  obtain ⟨t, ht⟩ : ∃ t : Fin cfg0.N, t.val = (i 0).val / 1024 := ⟨⟨(i 0).val / 1024, by omega⟩, rfl⟩
  obtain ⟨e0, e1⟩ := idx18 t
  refine ⟨t, flush0_18 t, ?_⟩
  rw [mem_blk18]
  intro a
  match a with
  | ⟨0, _⟩ => show win0_18.index t (0 : Fin 2) * 1024 ≤ (i 0).val ∧ (i 0).val < win0_18.index t (0 : Fin 2) * 1024 + 1024; omega
  | ⟨1, _⟩ => show win0_18.index t (1 : Fin 2) * 128 ≤ (i 1).val ∧ (i 1).val < win0_18.index t (1 : Fin 2) * 128 + 128; omega

theorem final18 (c : Dev nD) (G : S131072x128.Idx → F .f32)
    (hG : ∀ t : Fin cfg0.N, (dats m 0 c).flushed 18 t = b128 (pt t) G) : (dats m 0 c).arrAt 18 cfg0.N = G :=
  (dats m 0 c).arrAt_eq_of_cover 18 G (fun t _ => (hG t).trans (read18 G t).symm) cover18

/-- An index of window 19's array is in point `t`'s block iff each coordinate is in the block's range on its axis. -/
theorem mem_blk19 (t : Fin cfg0.N) (i : S131072x128.Idx) :
    i ∈ ((cfg0.win 19).blk t).view.set ↔ ∀ a : Fin 2, win0_19.index t a * S1024x128.size a ≤ (i a).val ∧ (i a).val < win0_19.index t a * S1024x128.size a + S1024x128.size a := by
  show i ∈ ((View.whole main_v25_3).slice (win0_19.rect t)).set ↔ _
  rw [View.set_slice_whole, Rect.mem_set_unit]
  exact Iff.rfl

/-- Every index of window 19's array is in the block of a point that writes it back. -/
theorem cover19 (i : S131072x128.Idx) : ∃ t : Fin cfg0.N, (cfg0.win 19).flush t = true ∧ i ∈ ((cfg0.win 19).blk t).view.set := by
  have hi0 : (i 0).val < 131072 := (i 0).isLt
  have hi1 : (i 1).val < 128 := (i 1).isLt
  have hN : cfg0.N = 128 := N_0
  obtain ⟨t, ht⟩ : ∃ t : Fin cfg0.N, t.val = (i 0).val / 1024 := ⟨⟨(i 0).val / 1024, by omega⟩, rfl⟩
  obtain ⟨e0, e1⟩ := idx19 t
  refine ⟨t, flush0_19 t, ?_⟩
  rw [mem_blk19]
  intro a
  match a with
  | ⟨0, _⟩ => show win0_19.index t (0 : Fin 2) * 1024 ≤ (i 0).val ∧ (i 0).val < win0_19.index t (0 : Fin 2) * 1024 + 1024; omega
  | ⟨1, _⟩ => show win0_19.index t (1 : Fin 2) * 128 ≤ (i 1).val ∧ (i 1).val < win0_19.index t (1 : Fin 2) * 128 + 128; omega

theorem final19 (c : Dev nD) (G : S131072x128.Idx → F .f32)
    (hG : ∀ t : Fin cfg0.N, (dats m 0 c).flushed 19 t = b128 (pt t) G) : (dats m 0 c).arrAt 19 cfg0.N = G :=
  (dats m 0 c).arrAt_eq_of_cover 19 G (fun t _ => (hG t).trans (read19 G t).symm) cover19

end Cert.KernelIdeal.Cover

end
-- ==== Proof.KernelHost.lean ====
import proofs.«124154_j32770600468497_1_alg».proof.Proof.Gen.KernelIdeal.Frame
import proofs.«124154_j32770600468497_1_alg».proof.Proof.Gen.ReferenceIdeal
import proofs.«124154_j32770600468497_1_alg».proof.Proof.Spec
import Idealize.ShloMosaic.Lib.StableHlo.Run
import Idealize.ShloMosaic.PureOps.Ideal

noncomputable section

/-! # The host operations around the kernel region

Before the region the host gathers the two ends' memory rows, encodes the time stamps and transposes the two
gate matrices; after it, it scatters the two updated-row arrays into the memory table and stacks the two output
arrays. Each of these values is the corresponding whole-array stage of the layer. -/

namespace Cert.KernelIdeal.HostSide

open Idealize.ShloMosaic Idealize.ShloMosaic.TcCoe
open Idealize.SL Idealize.SL.Sem
open Cert.KernelIdeal Cert.KernelIdeal.Gen Cert.ReferenceIdeal.Spec

variable (m : (ℓ : Loc nD τ sig) → Buf (Elt Ideal) ℓ)

/-- The layer's arguments as core `c` holds them at launch. -/
def args (c : Dev nD) : Args Ideal where
  srcEmb := m ((c : Thread nD τ).loc main_arg0)
  dstEmb := m ((c : Thread nD τ).loc main_arg1)
  edge := m ((c : Thread nD τ).loc main_arg2)
  ts := m ((c : Thread nD τ).loc main_arg3)
  mem := m ((c : Thread nD τ).loc main_arg4)
  tw := m ((c : Thread nD τ).loc main_arg5)
  tb := m ((c : Thread nD τ).loc main_arg6)
  w1 := m ((c : Thread nD τ).loc main_arg7)
  b1 := m ((c : Thread nD τ).loc main_arg8)
  w2 := m ((c : Thread nD τ).loc main_arg9)
  b2 := m ((c : Thread nD τ).loc main_arg10)
  wih := m ((c : Thread nD τ).loc main_arg11)
  bih := m ((c : Thread nD τ).loc main_arg12)
  whh := m ((c : Thread nD τ).loc main_arg13)
  bhh := m ((c : Thread nD τ).loc main_arg14)
  ow := m ((c : Thread nD τ).loc main_arg15)
  ob := m ((c : Thread nD τ).loc main_arg16)
  srcIds := m ((c : Thread nD τ).loc main_arg17)
  dstIds := m ((c : Thread nD τ).loc main_arg18)

/-! ## What the region finds in the arrays the host computed -/

theorem V_srcMem (c : Dev nD) : V m c main_v6 = srcMem (args m c) := by
  show StableHlo.after hostOps0 (fun b => m (c, b)) (Proc.devRef .tc main_v6) = _
  after_results_simp
  rfl
theorem V_dstMem (c : Dev nD) : V m c main_v13 = dstMem (args m c) := by
  show StableHlo.after hostOps0 (fun b => m (c, b)) (Proc.devRef .tc main_v13) = _
  after_results_simp
  rfl
theorem V_timeEmb (c : Dev nD) : V m c main_v22 = timeEmb (args m c) := by
  show StableHlo.after hostOps0 (fun b => m (c, b)) (Proc.devRef .tc main_v22) = _
  after_results_simp
  rfl
theorem V_wihT (c : Dev nD) : V m c main_v23 = wihT (args m c).wih := by
  show StableHlo.after hostOps0 (fun b => m (c, b)) (Proc.devRef .tc main_v23) = _
  after_results_simp
  rfl
theorem V_whhT (c : Dev nD) : V m c main_v24 = whhT (args m c).whh := by
  show StableHlo.after hostOps0 (fun b => m (c, b)) (Proc.devRef .tc main_v24) = _
  after_results_simp
  rfl

/-! ## The two results after the host tail -/

set_option maxHeartbeats 600000 in
/-- The stacked outputs, from the two output arrays the region leaves. -/
theorem tail_output (c : Dev nD) (A18 A19 : FVec Ideal S131072x128 .f32)
    (h18 : (dats m 0 c).arrAt 18 cfg0.N = A18) (h19 : (dats m 0 c).arrAt 19 cfg0.N = A19) :
    Pipeline.afterTail₀ cfgs (dats m) 0 (V0 m) [hostOps1] c main_v40 = stack A18 A19 := by
  -- the two operands are the arrays of windows 18 and 19 as the region leaves them
  have e18 : Pipeline.withArrays (cfgs 0).spec c (V0 m c) (fun w => (dats m 0 c).arrAt w (cfgs 0).N)
      (Proc.devRef .tc main_v25_2) = A18 :=
    (Pipeline.withArrays_arr spec0 launch0.win.arr_inj c (V0 m c) (fun w => (dats m 0 c).arrAt w cfg0.N) 18).trans h18
  have e19 : Pipeline.withArrays (cfgs 0).spec c (V0 m c) (fun w => (dats m 0 c).arrAt w (cfgs 0).N)
      (Proc.devRef .tc main_v25_3) = A19 :=
    (Pipeline.withArrays_arr spec0 launch0.win.arr_inj c (V0 m c) (fun w => (dats m 0 c).arrAt w cfg0.N) 19).trans h19
  unfold Pipeline.afterTail₀
  show StableHlo.after hostOps1 _ (Proc.devRef .tc main_v40) = _
  after_results
  rw [e18, e19]
  rfl

/-- The written-back memory table, from the two updated-row arrays the region leaves. -/
theorem tail_memory (c : Dev nD) (A16 A17 : FVec Ideal S131072x128 .f32)
    (h16 : (dats m 0 c).arrAt 16 cfg0.N = A16) (h17 : (dats m 0 c).arrAt 17 cfg0.N = A17) :
    Pipeline.afterTail₀ cfgs (dats m) 0 (V0 m) [hostOps1] c main_v39
      = putRows (putRows (args m c).mem (args m c).srcIds A16) (args m c).dstIds A17 := by
  -- the updated rows are the arrays of windows 16 and 17 as the region leaves them
  have e16 : Pipeline.withArrays (cfgs 0).spec c (V0 m c) (fun w => (dats m 0 c).arrAt w (cfgs 0).N)
      (Proc.devRef .tc main_v25_0) = A16 :=
    (Pipeline.withArrays_arr spec0 launch0.win.arr_inj c (V0 m c) (fun w => (dats m 0 c).arrAt w cfg0.N) 16).trans h16
  have e17 : Pipeline.withArrays (cfgs 0).spec c (V0 m c) (fun w => (dats m 0 c).arrAt w (cfgs 0).N)
      (Proc.devRef .tc main_v25_1) = A17 :=
    (Pipeline.withArrays_arr spec0 launch0.win.arr_inj c (V0 m c) (fun w => (dats m 0 c).arrAt w cfg0.N) 17).trans h17
  -- the memory table and the two id arrays are no window's array, and no host operation writes them
  have a4 : Pipeline.withArrays (cfgs 0).spec c (V0 m c) (fun w => (dats m 0 c).arrAt w (cfgs 0).N)
      (Proc.devRef .tc main_arg4) = m ((c : Thread nD τ).loc main_arg4) :=
    (Pipeline.withArrays_of_ne spec0 c (V0 m c) _ main_arg4 (by decide)).trans (V_main_arg4 m c)
  have a17 : Pipeline.withArrays (cfgs 0).spec c (V0 m c) (fun w => (dats m 0 c).arrAt w (cfgs 0).N)
      (Proc.devRef .tc main_arg17) = m ((c : Thread nD τ).loc main_arg17) :=
    (Pipeline.withArrays_of_ne spec0 c (V0 m c) _ main_arg17 (by decide)).trans (V_main_arg17 m c)
  have a18 : Pipeline.withArrays (cfgs 0).spec c (V0 m c) (fun w => (dats m 0 c).arrAt w (cfgs 0).N)
      (Proc.devRef .tc main_arg18) = m ((c : Thread nD τ).loc main_arg18) :=
    (Pipeline.withArrays_of_ne spec0 c (V0 m c) _ main_arg18 (by decide)).trans (V_main_arg18 m c)
  unfold Pipeline.afterTail₀
  show StableHlo.after hostOps1 _ (Proc.devRef .tc main_v39) = _
  after_results_simp
  rw [e16, e17, a4, a17, a18]
  rfl

/-- The two result buffers are among those the frame run states at the host tail's values. -/
theorem v40_rest : main_v40 ∈ Pipeline.restRefs sig (cfgs 0).spec :=
  Pipeline.mem_restRefs_of main_v40 (by decide) (by decide)
theorem v39_rest : main_v39 ∈ Pipeline.restRefs sig (cfgs 0).spec :=
  Pipeline.mem_restRefs_of main_v39 (by decide) (by decide)

end Cert.KernelIdeal.HostSide

end
-- ==== Proof.KernelFlush.lean ====
import proofs.«124154_j32770600468497_1_alg».proof.Proof.Gen.KernelIdeal.Frame
import proofs.«124154_j32770600468497_1_alg».proof.Proof.KernelBlocks
import proofs.«124154_j32770600468497_1_alg».proof.Proof.KernelCover
import proofs.«124154_j32770600468497_1_alg».proof.Proof.KernelHost

noncomputable section

/-! # The four arrays the region leaves

At grid point `t` the body finds rows `1024·t …` of the two gathered memory arrays, of the edge features, of
the time encoding and of the two embedding arrays, and the whole weight arrays; what it stores in each output
buffer is then the row block of the layer's stage — the updated source rows, the updated destination rows, the
two outputs. The 128 blocks tile each output array, so after the run the four arrays are those four stages. -/

namespace Cert.KernelIdeal.Flush

open Idealize.ShloMosaic Idealize.ShloMosaic.TcCoe
open Idealize.SL Idealize.SL.Sem
open Cert.KernelIdeal Cert.KernelIdeal.Gen Cert.KernelIdeal.Blocks Cert.KernelIdeal.Cover Cert.KernelIdeal.HostSide
open Cert.ReferenceIdeal.Spec

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-! ## The input blocks at a point -/

section Blocks
variable (c : Dev nD) (t : Fin cfg0.N)

theorem iblk0 : iblk m c 0 t = b128 (pt t) (srcMem (args m c)) :=
  (read0 (F := Ideal) (V m c main_v6) t).trans (congrArg (b128 (pt t)) (V_srcMem m c))
theorem iblk1 : iblk m c 1 t = b128 (pt t) (dstMem (args m c)) :=
  (read1 (F := Ideal) (V m c main_v13) t).trans (congrArg (b128 (pt t)) (V_dstMem m c))
theorem iblk2 : iblk m c 2 t = b128 (pt t) (args m c).edge :=
  (read2 (F := Ideal) (V m c main_arg2) t).trans (congrArg (b128 (pt t)) (V_main_arg2 m c))
theorem iblk3 : iblk m c 3 t = b100 (pt t) (timeEmb (args m c)) :=
  (read3 (F := Ideal) (V m c main_v22) t).trans (congrArg (b100 (pt t)) (V_timeEmb m c))
theorem iblk4 : iblk m c 4 t = b128 (pt t) (args m c).srcEmb :=
  (read4 (F := Ideal) (V m c main_arg0) t).trans (congrArg (b128 (pt t)) (V_main_arg0 m c))
theorem iblk5 : iblk m c 5 t = b128 (pt t) (args m c).dstEmb :=
  (read5 (F := Ideal) (V m c main_arg1) t).trans (congrArg (b128 (pt t)) (V_main_arg1 m c))
theorem iblk6 : iblk m c 6 t = (args m c).w1 := (read6 (F := Ideal) (V m c main_arg7) t).trans (V_main_arg7 m c)
theorem iblk7 : iblk m c 7 t = (args m c).b1 := (read7 (F := Ideal) (V m c main_arg8) t).trans (V_main_arg8 m c)
theorem iblk8 : iblk m c 8 t = (args m c).w2 := (read8 (F := Ideal) (V m c main_arg9) t).trans (V_main_arg9 m c)
theorem iblk9 : iblk m c 9 t = (args m c).b2 := (read9 (F := Ideal) (V m c main_arg10) t).trans (V_main_arg10 m c)
theorem iblk10 : iblk m c 10 t = wihT (args m c).wih := (read10 (F := Ideal) (V m c main_v23) t).trans (V_wihT m c)
theorem iblk11 : iblk m c 11 t = (args m c).bih := (read11 (F := Ideal) (V m c main_arg12) t).trans (V_main_arg12 m c)
theorem iblk12 : iblk m c 12 t = whhT (args m c).whh := (read12 (F := Ideal) (V m c main_v24) t).trans (V_whhT m c)
theorem iblk13 : iblk m c 13 t = (args m c).bhh := (read13 (F := Ideal) (V m c main_arg14) t).trans (V_main_arg14 m c)
theorem iblk14 : iblk m c 14 t = (args m c).ow := (read14 (F := Ideal) (V m c main_arg15) t).trans (V_main_arg15 m c)
theorem iblk15 : iblk m c 15 t = (args m c).ob := (read15 (F := Ideal) (V m c main_arg16) t).trans (V_main_arg16 m c)

end Blocks

/-! ## What each point writes back -/

/-- Point `t` writes rows `1024·t …` of the updated source rows. -/
theorem flushed16 (c : Dev nD) (t : Fin cfg0.N) : (dats m 0 c).flushed 16 t = b128 (pt t) (updSrc (args m c)) := by
  show (cfg0.win 16).cut (grid0.coords t) ((dats m 0 c).after 16 t) = _
  rw [after0_16]
  unfold out0_16
  rw [View.canon_unit_zero hz2]
  simp only [View.ld_unit_zero (S := S1024x128) hz2, View.ld_unit_zero (S := S1024x100) hz2, View.ld_unit_zero (S := S484x100) hz2, View.ld_unit_zero (S := S100) hz1, View.ld_unit_zero (S := S100x100) hz2, View.ld_unit_zero (S := S100x384) hz2, View.ld_unit_zero (S := S384) hz1, View.ld_unit_zero (S := S128x384) hz2, View.ld_unit_zero (S := S256x128) hz2, View.ld_unit_zero (S := S128) hz1]
  rw [iblk0 m c t, iblk1 m c t, iblk2 m c t, iblk3 m c t, iblk6 m c t, iblk7 m c t, iblk8 m c t, iblk9 m c t, iblk10 m c t, iblk11 m c t, iblk12 m c t, iblk13 m c t]
  rw [pay1_rows, pay7_rows, pay10_rows]
  rfl

/-- Point `t` writes rows `1024·t …` of the updated destination rows. -/
theorem flushed17 (c : Dev nD) (t : Fin cfg0.N) : (dats m 0 c).flushed 17 t = b128 (pt t) (updDst (args m c)) := by
  show (cfg0.win 17).cut (grid0.coords t) ((dats m 0 c).after 17 t) = _
  rw [after0_17]
  unfold out0_17
  rw [View.canon_unit_zero hz2]
  simp only [View.ld_unit_zero (S := S1024x128) hz2, View.ld_unit_zero (S := S1024x100) hz2, View.ld_unit_zero (S := S484x100) hz2, View.ld_unit_zero (S := S100) hz1, View.ld_unit_zero (S := S100x100) hz2, View.ld_unit_zero (S := S100x384) hz2, View.ld_unit_zero (S := S384) hz1, View.ld_unit_zero (S := S128x384) hz2, View.ld_unit_zero (S := S256x128) hz2, View.ld_unit_zero (S := S128) hz1]
  rw [iblk0 m c t, iblk1 m c t, iblk2 m c t, iblk3 m c t, iblk6 m c t, iblk7 m c t, iblk8 m c t, iblk9 m c t, iblk10 m c t, iblk11 m c t, iblk12 m c t, iblk13 m c t]
  rw [pay2_rows, pay6_rows, pay12_rows, pay13_rows, pay14_rows, pay15_rows, gates_rows, ← gruOf_eq]
  rfl

/-- Point `t` writes rows `1024·t …` of the sources' output. -/
theorem flushed18 (c : Dev nD) (t : Fin cfg0.N) : (dats m 0 c).flushed 18 t = b128 (pt t) (srcOut (args m c)) := by
  show (cfg0.win 18).cut (grid0.coords t) ((dats m 0 c).after 18 t) = _
  rw [after0_18]
  unfold out0_18
  rw [View.canon_unit_zero hz2]
  simp only [View.ld_unit_zero (S := S1024x128) hz2, View.ld_unit_zero (S := S1024x100) hz2, View.ld_unit_zero (S := S484x100) hz2, View.ld_unit_zero (S := S100) hz1, View.ld_unit_zero (S := S100x100) hz2, View.ld_unit_zero (S := S100x384) hz2, View.ld_unit_zero (S := S384) hz1, View.ld_unit_zero (S := S128x384) hz2, View.ld_unit_zero (S := S256x128) hz2, View.ld_unit_zero (S := S128) hz1]
  rw [iblk0 m c t, iblk1 m c t, iblk2 m c t, iblk3 m c t, iblk4 m c t, iblk6 m c t, iblk7 m c t, iblk8 m c t, iblk9 m c t, iblk10 m c t, iblk11 m c t, iblk12 m c t, iblk13 m c t, iblk14 m c t, iblk15 m c t]
  rw [pay1_rows, pay7_rows, pay10_rows, pay18_rows]
  rfl

/-- Point `t` writes rows `1024·t …` of the destinations' output. -/
theorem flushed19 (c : Dev nD) (t : Fin cfg0.N) : (dats m 0 c).flushed 19 t = b128 (pt t) (dstOut (args m c)) := by
  show (cfg0.win 19).cut (grid0.coords t) ((dats m 0 c).after 19 t) = _
  rw [after0_19]
  unfold out0_19
  rw [View.canon_unit_zero hz2]
  simp only [View.ld_unit_zero (S := S1024x128) hz2, View.ld_unit_zero (S := S1024x100) hz2, View.ld_unit_zero (S := S484x100) hz2, View.ld_unit_zero (S := S100) hz1, View.ld_unit_zero (S := S100x100) hz2, View.ld_unit_zero (S := S100x384) hz2, View.ld_unit_zero (S := S384) hz1, View.ld_unit_zero (S := S128x384) hz2, View.ld_unit_zero (S := S256x128) hz2, View.ld_unit_zero (S := S128) hz1]
  rw [iblk0 m c t, iblk1 m c t, iblk2 m c t, iblk3 m c t, iblk5 m c t, iblk6 m c t, iblk7 m c t, iblk8 m c t, iblk9 m c t, iblk10 m c t, iblk11 m c t, iblk12 m c t, iblk13 m c t, iblk14 m c t, iblk15 m c t]
  rw [pay2_rows, pay6_rows, pay12_rows, pay13_rows, pay14_rows, pay15_rows, pay19_rows, ← gruOf_eq]
  rfl

/-! ## The arrays after the run -/

theorem final16 (c : Dev nD) : (dats m 0 c).arrAt 16 cfg0.N = updSrc (args m c) := Cover.final16 m c _ (flushed16 m c)
theorem final17 (c : Dev nD) : (dats m 0 c).arrAt 17 cfg0.N = updDst (args m c) := Cover.final17 m c _ (flushed17 m c)
theorem final18 (c : Dev nD) : (dats m 0 c).arrAt 18 cfg0.N = srcOut (args m c) := Cover.final18 m c _ (flushed18 m c)
theorem final19 (c : Dev nD) : (dats m 0 c).arrAt 19 cfg0.N = dstOut (args m c) := Cover.final19 m c _ (flushed19 m c)

end Cert.KernelIdeal.Flush

end
-- ==== Proof.KernelRun.lean ====
import proofs.«124154_j32770600468497_1_alg».proof.Proof.KernelFlush

noncomputable section

/-! # The kernel program's run, read

Every weakly fair execution of the idealized kernel program terminates with the stacked outputs and the
written-back memory table at the layer's two results of the argument arrays, the arguments unchanged: the region
leaves the four stages in its output arrays, the host tail scatters two of them into the table and stacks the
other two. -/

namespace Cert.KernelIdeal.Run

open Idealize.ShloMosaic Idealize.ShloMosaic.TcCoe
open Idealize.SL Idealize.SL.Sem
open Cert.KernelIdeal Cert.KernelIdeal.Gen Cert.KernelIdeal.HostSide Cert.ReferenceIdeal.Spec

variable (m : (ℓ : Loc nD τ sig) → Buf (Elt Ideal) ℓ) (ρ : Dev nD → PrngReg)

set_option maxHeartbeats 1200000 in
theorem run : θ_run defs (onTc (τ := τ) (main (F := Ideal))) ⟨m, fun _ => 0, ρ⟩ (fun r => ∀ c : Dev nD,
      r.2.mem ((c.tc : Thread nD τ).loc main_v40) = output (args m c)
      ∧ r.2.mem ((c.tc : Thread nD τ).loc main_v39) = newMemory (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_v40 v40_rest).trans (tail_output m c _ _ (Flush.final18 m c) (Flush.final19 m c)),
      ((h c).2 main_v39 v39_rest).trans (tail_memory m c _ _ (Flush.final16 m c) (Flush.final17 m c)),
      ((h c).1 4).trans (((dats m 0 c).arrAt_in 4 rfl _).trans ((A_eq m c 4).trans (V_main_arg0 m c))),
      ((h c).1 5).trans (((dats m 0 c).arrAt_in 5 rfl _).trans ((A_eq m c 5).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      (((h c).2 main_arg11 (Pipeline.mem_restRefs_of main_arg11 (by decide) (by decide))).trans (W_main_arg11 m (dats m) c)),
      ((h c).1 11).trans (((dats m 0 c).arrAt_in 11 rfl _).trans ((A_eq m c 11).trans (V_main_arg12 m c))),
      (((h c).2 main_arg13 (Pipeline.mem_restRefs_of main_arg13 (by decide) (by decide))).trans (W_main_arg13 m (dats m) c)),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c))),
      ((h c).1 15).trans (((dats m 0 c).arrAt_in 15 rfl _).trans ((A_eq m c 15).trans (V_main_arg16 m c))),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c))⟩) (run_main m ρ)

end Cert.KernelIdeal.Run

end
-- ==== Proof.RefSide.lean ====
import proofs.«124154_j32770600468497_1_alg».proof.Proof.RefRunPatched
import proofs.«124154_j32770600468497_1_alg».proof.Proof.Spec

noncomputable section

/-! # The reference program's two results are the layer's

The reference is the layer written stage by stage on whole arrays, so its run's two result terms are, operation
for operation, the stacked outputs and the written-back memory table of its arguments. -/

namespace Cert.ReferenceIdeal.RefSide

open Idealize.ShloMosaic Idealize.ShloMosaic.TcCoe Idealize.SL.Sem
open Cert.ReferenceIdeal Cert.ReferenceIdeal.Spec

variable {F : FTy → Type} [FloatOps F]
variable (m : (ℓ : Loc nD τ sig) → Buf (Elt F) ℓ)

/-- The layer's arguments as core `c` holds them at launch. -/
def args (c : Dev nD) : Args F where
  srcEmb := m ((c.tc : Thread nD τ).loc main_arg0)
  dstEmb := m ((c.tc : Thread nD τ).loc main_arg1)
  edge := m ((c.tc : Thread nD τ).loc main_arg2)
  ts := m ((c.tc : Thread nD τ).loc main_arg3)
  mem := m ((c.tc : Thread nD τ).loc main_arg4)
  tw := m ((c.tc : Thread nD τ).loc main_arg5)
  tb := m ((c.tc : Thread nD τ).loc main_arg6)
  w1 := m ((c.tc : Thread nD τ).loc main_arg7)
  b1 := m ((c.tc : Thread nD τ).loc main_arg8)
  w2 := m ((c.tc : Thread nD τ).loc main_arg9)
  b2 := m ((c.tc : Thread nD τ).loc main_arg10)
  wih := m ((c.tc : Thread nD τ).loc main_arg11)
  bih := m ((c.tc : Thread nD τ).loc main_arg12)
  whh := m ((c.tc : Thread nD τ).loc main_arg13)
  bhh := m ((c.tc : Thread nD τ).loc main_arg14)
  ow := m ((c.tc : Thread nD τ).loc main_arg15)
  ob := m ((c.tc : Thread nD τ).loc main_arg16)
  srcIds := m ((c.tc : Thread nD τ).loc main_arg17)
  dstIds := m ((c.tc : Thread nD τ).loc main_arg18)

set_option maxRecDepth 8192 in
/-- The first result is the two outputs stacked. -/
theorem out0_eq (c : Dev nD) : RunP.res_main_v143 m c = output (args m c) := by
  unfold RunP.res_main_v143 output stack srcOut dstOut outProj updSrc updDst gru gruOf gatesIn gatesHid colsR colsZ colsN sigm ones
    bias128 bias384 d2sMsg s2dMsg message bias100 msgIn srcMem dstMem timeEmb timeEnc memRows wrapIds wihT whhT args
  rfl

set_option maxRecDepth 8192 in
/-- The second result is the memory table with both ends' updated rows written back. -/
theorem out1_eq (c : Dev nD) : RunP.res_main_v132 m c = newMemory (args m c) := by
  unfold RunP.res_main_v132 newMemory putRows updSrc updDst gru gruOf gatesIn gatesHid colsR colsZ colsN sigm ones
    bias384 d2sMsg s2dMsg message bias100 msgIn srcMem dstMem timeEmb timeEnc memRows wrapIds wihT whhT args
  rfl

end Cert.ReferenceIdeal.RefSide

end
-- ==== Proof.lean ====
/- The certificate's proof. The kernel program gathers the two ends' memory rows, encodes the time stamps and
   transposes the gate matrices on the host, runs one kernel over 128 blocks of 1024 interactions that computes both
   messages, both gated-cell updates and both output projections, and then scatters the updated rows into the
   memory table and stacks the outputs. The reference is the same layer on whole arrays. Both frames of the kernel
   program are its generated frame; the reference's frame is its run (Proof/RefRunPatched.lean) with the results dropped; the
   idealization rewrote nothing, so `preserves` is trivial; and the two idealized programs end at the same two
   results because every stage of the layer acts row by row: the kernel's block of rows is the row block of the
   whole-array stage (Proof/KernelBlocks.lean over Proof/LibRowBlock.lean), the 128 blocks tile each output
   (Proof/KernelCover.lean, Proof/KernelFlush.lean), the host operations on both sides are the same functions
   (Proof/KernelHost.lean, Proof/RefSide.lean), and the arguments agree. -/
import proofs.«124154_j32770600468497_1_alg».proof.Defs
import proofs.«124154_j32770600468497_1_alg».proof.Proof.Gen.Kernel
import proofs.«124154_j32770600468497_1_alg».proof.Proof.Gen.Kernel.Skeleton
import proofs.«124154_j32770600468497_1_alg».proof.Proof.Gen.Kernel.Launch
import proofs.«124154_j32770600468497_1_alg».proof.Proof.Gen.Kernel.Points
import proofs.«124154_j32770600468497_1_alg».proof.Proof.Gen.Kernel.Frame
import proofs.«124154_j32770600468497_1_alg».proof.Proof.Gen.KernelIdeal
import proofs.«124154_j32770600468497_1_alg».proof.Proof.Gen.KernelIdeal.Skeleton
import proofs.«124154_j32770600468497_1_alg».proof.Proof.Gen.KernelIdeal.Launch
import proofs.«124154_j32770600468497_1_alg».proof.Proof.Gen.KernelIdeal.Points
import proofs.«124154_j32770600468497_1_alg».proof.Proof.Gen.KernelIdeal.Frame
import proofs.«124154_j32770600468497_1_alg».proof.Proof.Gen.ReferenceIdeal
import proofs.«124154_j32770600468497_1_alg».proof.Proof.Gen.Pre_finite_inputs
import proofs.«124154_j32770600468497_1_alg».proof.Proof.KernelRun
import proofs.«124154_j32770600468497_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RunP.run (F := Ideal) m ρ)

/-- Arguments that agree buffer by buffer are one argument record. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.RefSide.args m' c = Cert.KernelIdeal.HostSide.args m c := by
  unfold Cert.ReferenceIdeal.RefSide.args Cert.KernelIdeal.HostSide.args
  rw [h0, h1, h2, h3, h4, h5, h6, h7, h8, h9, h10, h11, h12, h13, h14, h15, h16, h17, h18]

/-- Run from memories that agree on the arguments, the two idealized programs end with the same stacked outputs and
    the same memory table: the layer's two results of the arguments. -/
theorem algebraic : Cert.algebraic_KernelIdeal_ReferenceIdeal := by
  intro m ρ m' ρ' _ hagree
  refine ⟨fun c => Cert.ReferenceIdeal.Spec.output (Cert.KernelIdeal.HostSide.args m c),
    fun c => Cert.ReferenceIdeal.Spec.newMemory (Cert.KernelIdeal.HostSide.args m c), Cert.KernelIdeal.Run.run m ρ, ?_⟩
  refine (θ_run Cert.ReferenceIdeal.defs _ _).mono (fun _ h c => ?_) (Cert.ReferenceIdeal.RunP.run (F := Ideal) m' ρ')
  obtain ⟨h0, h1, h2, h3, h4, h5, h6, h7, h8, h9, h10, h11, h12, h13, h14, h15, h16, h17, h18⟩ := hagree c
  have ha := args_agree m m' c h0 h1 h2 h3 h4 h5 h6 h7 h8 h9 h10 h11 h12 h13 h14 h15 h16 h17 h18
  refine ⟨(h c).1.trans ?_, (h c).2.1.trans ?_, (h c).2.2⟩
  · rw [Cert.ReferenceIdeal.RefSide.out0_eq, ha]
  · rw [Cert.ReferenceIdeal.RefSide.out1_eq, ha]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
